-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S2000000 : Shape := ⟨1, ![2000000]⟩
abbrev S500000 : Shape := ⟨1, ![500000]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg18 : FVec F S2 .f32) (main_v83 : IVec S_ 1) (main_v84 : FVec F S64x2 .f32) (main_cst_32 : FVec F S_ .f32) : IVec S_ 1 :=
  let main_v85 : FVec F S64x2 .f32 := broadcastInDim S64x2 ![] bcast_S_S64x2 main_cst_32
  let main_v86 : IVec S64x2 1 := cmpf .olt main_v84 main_v85
  let main_c_33 : IVec S_ 1 := constantI S_ 1 1#1
  let main_v87 : IVec S_ 1 := (fun x v => Host.reduce IntOp.andi x v reducesTo_S64x2_S_d0_1 h_S_) main_v86 main_c_33
  let main_v88 : IVec S_ 1 := andi main_v83 main_v87
  let main_v89 : FVec F S2 .f32 := Host.absf main_arg18
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  main_v93

def fn_part4 {F : FTy → Type} [FloatOps F] (main_arg14 : FVec F S64 .f32) (main_arg15 : FVec F S64x64 .f32) (main_arg16 : FVec F S64 .f32) (main_arg17 : FVec F S64x2 .f32) (main_arg18 : FVec F S2 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x2 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x2 .f32) (main_arg18 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_arg16 main_arg17 main_arg18 main_v63 main_v67

def fn_part2 {F : FTy → Type} [FloatOps F] (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x2 .f32) (main_arg18 : FVec F S2 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_arg16 main_arg17 main_arg18 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x2 .f32) (main_arg18 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x2 .f32) (main_arg18 : FVec F S2 .f32) (main_arg19 : IVec S2000000 32) (main_arg20 : IVec S2000000 32) (main_arg21 : IVec S500000 32) (main_arg22 : IVec S500000 32) (main_arg23 : IVec S1000000 32) (main_arg24 : IVec S1000000 32) (main_arg25 : IVec S500000 32) (main_arg26 : IVec S500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S2000000 : Shape := ⟨1, ![2000000]⟩
abbrev S500000 : Shape := ⟨1, ![500000]⟩
abbrev S1000000 : Shape := ⟨1, ![1000000]⟩
abbrev S_ : Shape := ⟨0, ![]⟩
abbrev S100000 : Shape := ⟨1, ![100000]⟩
abbrev S2000000x1 : Shape := ⟨2, ![2000000, 1]⟩
abbrev S100000x1 : Shape := ⟨2, ![100000, 1]⟩
abbrev S2000000x64 : Shape := ⟨2, ![2000000, 64]⟩
abbrev S100000x2 : Shape := ⟨2, ![100000, 2]⟩
abbrev S1x64 : Shape := ⟨2, ![1, 64]⟩
abbrev S5000x64 : Shape := ⟨2, ![5000, 64]⟩
abbrev S5000x2 : Shape := ⟨2, ![5000, 2]⟩
abbrev S5000x1 : Shape := ⟨2, ![5000, 1]⟩
abbrev S1x2 : Shape := ⟨2, ![1, 2]⟩

abbrev nBuf : Space → Nat
  | .hbm => 86
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x2, .f32⟩
  | .hbm, ⟨18, _⟩ => ⟨S2, .f32⟩
  | .hbm, ⟨19, _⟩ => ⟨S2000000, .i32⟩
  | .hbm, ⟨20, _⟩ => ⟨S2000000, .i32⟩
  | .hbm, ⟨21, _⟩ => ⟨S500000, .i32⟩
  | .hbm, ⟨22, _⟩ => ⟨S500000, .i32⟩
  | .hbm, ⟨23, _⟩ => ⟨S1000000, .i32⟩
  | .hbm, ⟨24, _⟩ => ⟨S1000000, .i32⟩
  | .hbm, ⟨25, _⟩ => ⟨S500000, .i32⟩
  | .hbm, ⟨26, _⟩ => ⟨S500000, .i32⟩
  | .hbm, ⟨27, _⟩ => ⟨S_, .f32⟩
  | .hbm, ⟨28, _⟩ => ⟨S2000000, .f32⟩
  | .hbm, ⟨29, _⟩ => ⟨S_, .f32⟩
  | .hbm, ⟨30, _⟩ => ⟨S100000, .f32⟩
  | .hbm, ⟨31, _⟩ => ⟨S2000000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S2000000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x64, .f32⟩
  | .hbm, ⟨47, _⟩ => ⟨S100000x64, .f32⟩
  | .hbm, ⟨48, _⟩ => ⟨S100000x64, .bf16⟩
  | .hbm, ⟨49, _⟩ => ⟨S_, .i32⟩
  | .hbm, ⟨50, _⟩ => ⟨S2000000, .i32⟩
  | .hbm, ⟨51, _⟩ => ⟨S2000000, .i1⟩
  | .hbm, ⟨52, _⟩ => ⟨S_, .i32⟩
  | .hbm, ⟨53, _⟩ => ⟨S2000000, .i32⟩
  | .hbm, ⟨54, _⟩ => ⟨S2000000, .i32⟩
  | .hbm, ⟨55, _⟩ => ⟨S2000000, .i32⟩
  | .hbm, ⟨56, _⟩ => ⟨S2000000x1, .i32⟩
  | .hbm, ⟨57, _⟩ => ⟨S2000000x64, .bf16⟩
  | .hbm, ⟨58, _⟩ => ⟨S2000000x64, .f32⟩
  | .hbm, ⟨59, _⟩ => ⟨S_, .f32⟩
  | .hbm, ⟨60, _⟩ => ⟨S100000x64, .f32⟩
  | .hbm, ⟨61, _⟩ => ⟨S2000000x1, .i32⟩
  | .hbm, ⟨62, _⟩ => ⟨S100000x64, .f32⟩
  | .hbm, ⟨63, _⟩ => ⟨S100000x1, .f32⟩
  | .hbm, ⟨64, _⟩ => ⟨S100000x1, .f32⟩
  | .hbm, ⟨65, _⟩ => ⟨S100000x2, .f32⟩
  | .hbm, ⟨66, _⟩ => ⟨S1x64, .f32⟩
  | .hbm, ⟨67, _⟩ => ⟨S100000x64, .bf16⟩
  | .hbm, ⟨68, _⟩ => ⟨S_, .i32⟩
  | .hbm, ⟨69, _⟩ => ⟨S2000000, .i32⟩
  | .hbm, ⟨70, _⟩ => ⟨S2000000, .i1⟩
  | .hbm, ⟨71, _⟩ => ⟨S_, .i32⟩
  | .hbm, ⟨72, _⟩ => ⟨S2000000, .i32⟩
  | .hbm, ⟨73, _⟩ => ⟨S2000000, .i32⟩
  | .hbm, ⟨74, _⟩ => ⟨S2000000, .i32⟩
  | .hbm, ⟨75, _⟩ => ⟨S2000000x1, .i32⟩
  | .hbm, ⟨76, _⟩ => ⟨S2000000x64, .bf16⟩
  | .hbm, ⟨77, _⟩ => ⟨S2000000x64, .f32⟩
  | .hbm, ⟨78, _⟩ => ⟨S_, .f32⟩
  | .hbm, ⟨79, _⟩ => ⟨S100000x64, .f32⟩
  | .hbm, ⟨80, _⟩ => ⟨S2000000x1, .i32⟩
  | .hbm, ⟨81, _⟩ => ⟨S100000x64, .f32⟩
  | .hbm, ⟨82, _⟩ => ⟨S100000x1, .f32⟩
  | .hbm, ⟨83, _⟩ => ⟨S1x64, .f32⟩
  | .hbm, ⟨84, _⟩ => ⟨S1x2, .f32⟩
  | .hbm, ⟨85, _⟩ => ⟨S100000x2, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x2, .f32⟩
  | .local _ .vmem, ⟨5, _⟩ => ⟨S5000x2, .f32⟩
  | .local _ .vmem, ⟨6, _⟩ => ⟨S5000x64, .bf16⟩
  | .local _ .vmem, ⟨7, _⟩ => ⟨S5000x64, .bf16⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S1x64, .f32⟩
  | .local _ .vmem, ⟨12, _⟩ => ⟨S5000x1, .f32⟩
  | .local _ .vmem, ⟨13, _⟩ => ⟨S5000x1, .f32⟩
  | .local _ .vmem, ⟨14, _⟩ => ⟨S64x2, .f32⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_cst_0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst_1 : Ref sig .tc := ⟨.hbm, 33, rfl⟩
abbrev main_v4 : Ref sig .tc := ⟨.hbm, 34, rfl⟩
abbrev main_v5 : Ref sig .tc := ⟨.hbm, 35, rfl⟩
abbrev main_cst_2 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_3 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_6 : Ref sig .tc := ⟨.hbm, 68, rfl⟩
abbrev main_v33 : Ref sig .tc := ⟨.hbm, 69, rfl⟩
abbrev main_v34 : Ref sig .tc := ⟨.hbm, 70, rfl⟩
abbrev main_c_7 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bitsLt_bf16_f32 : FTy.bits .bf16 < FTy.bits .f32
  bcast_S_S100000x64 : S_.BroadcastsInDim S100000x64 (![] : Fin 0 → Fin S100000x64.rank)
  concatenates_S100000x1_S100000x1_S100000x2_d1 : Shape.Concatenates [S100000x1, S100000x1] S100000x2 1
  shapeCasts_S64_S1x64 : S64.ShapeCasts S1x64
  inb_S5000x2_S5000x1_0_0 : ∀ a, (![0, 0] : Fin 2 → Nat) a + S5000x1.size a ≤ S5000x2.size a
  h_S5000x1 : 0 < S5000x1.numel
  shapeCasts_S5000x1_S5000x1 : S5000x1.ShapeCasts S5000x1
  inb_S5000x2_S5000x1_0_1 : ∀ a, (![0, 1] : Fin 2 → Nat) a + S5000x1.size a ≤ S5000x2.size a
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  shapeCasts_S2_S1x2 : S2.ShapeCasts S1x2
  inb_S5000x1_S5000x1_0_0 : ∀ a, (![0, 0] : Fin 2 → Nat) a + S5000x1.size a ≤ S5000x1.size a
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x2.size a ≤ S100000x2.size a
  hwx0_3 : ∀ i : grid0.Coords, EltTy.bits .f32 = 32 ∨ (Rect.block (s := S100000x2) S5000x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .bf16 = 32 ∨ (Rect.block (s := S100000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x2.size a ≤ S64x2.size a
  hwx1_4 : ∀ i : grid1.Coords, EltTy.bits .f32 = 32 ∨ (Rect.block (s := S64x2) S64x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x2.size a ≤ S100000x2.size a
  hwx1_6 : ∀ i : grid1.Coords, EltTy.bits .f32 = 32 ∨ (Rect.block (s := S100000x2) S5000x2.size (cc1_transform_6 i) (hinb1_6 i)).WholeWords (EltTy.packing .f32)

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v27) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg17) S64x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S5000x2.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S2000000 : Shape := ⟨1, ![2000000]⟩
abbrev S500000 : Shape := ⟨1, ![500000]⟩
abbrev S1000000 : Shape := ⟨1, ![1000000]⟩
abbrev S_ : Shape := ⟨0, ![]⟩
abbrev S100000 : Shape := ⟨1, ![100000]⟩
abbrev S2000000x1 : Shape := ⟨2, ![2000000, 1]⟩
abbrev S100000x1 : Shape := ⟨2, ![100000, 1]⟩
abbrev S2000000x64 : Shape := ⟨2, ![2000000, 64]⟩
abbrev S1x64 : Shape := ⟨2, ![1, 64]⟩
abbrev S500000x1 : Shape := ⟨2, ![500000, 1]⟩
abbrev S80000 : Shape := ⟨1, ![80000]⟩
abbrev S500000x64 : Shape := ⟨2, ![500000, 64]⟩
abbrev S80000x64 : Shape := ⟨2, ![80000, 64]⟩
abbrev S80000x1 : Shape := ⟨2, ![80000, 1]⟩
abbrev S1000000x1 : Shape := ⟨2, ![1000000, 1]⟩
abbrev S1000000x64 : Shape := ⟨2, ![1000000, 64]⟩
abbrev S60000 : Shape := ⟨1, ![60000]⟩
abbrev S60000x64 : Shape := ⟨2, ![60000, 64]⟩
abbrev S60000x1 : Shape := ⟨2, ![60000, 1]⟩
abbrev S100000x2 : Shape := ⟨2, ![100000, 2]⟩
abbrev S1x2 : Shape := ⟨2, ![1, 2]⟩

abbrev nBuf : Space → Nat
  | .hbm => 383
  | .vmem => 0
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x2, .f32⟩
  | 18 => ⟨S2, .f32⟩
  | 19 => ⟨S2000000, .i32⟩
  | 20 => ⟨S2000000, .i32⟩
  | 21 => ⟨S500000, .i32⟩
  | 22 => ⟨S500000, .i32⟩
  | 23 => ⟨S1000000, .i32⟩
  | 24 => ⟨S1000000, .i32⟩
  | 25 => ⟨S500000, .i32⟩
  | 26 => ⟨S500000, .i32⟩
  | 27 => ⟨S_, .f32⟩
  | 28 => ⟨S2000000, .f32⟩
  | 29 => ⟨S_, .f32⟩
  | 30 => ⟨S100000, .f32⟩
  | 31 => ⟨S2000000x1, .i32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S2000000x1, .i32⟩
  | 39 => ⟨S100000, .f32⟩
  | 40 => ⟨S_, .f32⟩
  | 41 => ⟨S100000, .f32⟩
  | 42 => ⟨S100000, .f32⟩
  | 43 => ⟨S100000, .f32⟩
  | 44 => ⟨S100000x1, .f32⟩
  | 45 => ⟨S100000x64, .f32⟩
  | 46 => ⟨S100000x64, .f32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S2000000x64, .f32⟩
  | 56 => ⟨S_, .f32⟩
  | 57 => ⟨S100000x64, .f32⟩
  | 58 => ⟨S2000000x1, .i32⟩
  | 59 => ⟨S100000x64, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S_, .f32⟩
  | 72 => ⟨S500000, .f32⟩
  | 73 => ⟨S_, .f32⟩
  | 74 => ⟨S100000, .f32⟩
  | 75 => ⟨S500000x1, .i32⟩
  | 76 => ⟨S100000, .f32⟩
  | 77 => ⟨S_, .f32⟩
  | 78 => ⟨S100000, .f32⟩
  | 79 => ⟨S100000, .f32⟩
  | 80 => ⟨S_, .f32⟩
  | 81 => ⟨S80000, .f32⟩
  | 82 => ⟨S500000x1, .i32⟩
  | 83 => ⟨S80000, .f32⟩
  | 84 => ⟨S_, .f32⟩
  | 85 => ⟨S80000, .f32⟩
  | 86 => ⟨S80000, .f32⟩
  | 87 => ⟨S100000, .f32⟩
  | 88 => ⟨S100000x1, .f32⟩
  | 89 => ⟨S100000x64, .f32⟩
  | 90 => ⟨S100000x64, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x64, .f32⟩
  | 100 => ⟨S_, .f32⟩
  | 101 => ⟨S80000x64, .f32⟩
  | 102 => ⟨S500000x1, .i32⟩
  | 103 => ⟨S80000x64, .f32⟩
  | 104 => ⟨S80000, .f32⟩
  | 105 => ⟨S80000x1, .f32⟩
  | 106 => ⟨S80000x64, .f32⟩
  | 107 => ⟨S80000x64, .f32⟩
  | 108 => ⟨S80000x64, .f32⟩
  | 109 => ⟨S1x64, .f32⟩
  | 110 => ⟨S80000x64, .f32⟩
  | 111 => ⟨S80000x64, .f32⟩
  | 112 => ⟨S_, .f32⟩
  | 113 => ⟨S80000x64, .f32⟩
  | 114 => ⟨S80000x64, .f32⟩
  | 115 => ⟨S_, .f32⟩
  | 116 => ⟨S1000000, .f32⟩
  | 117 => ⟨S_, .f32⟩
  | 118 => ⟨S100000, .f32⟩
  | 119 => ⟨S1000000x1, .i32⟩
  | 120 => ⟨S100000, .f32⟩
  | 121 => ⟨S_, .f32⟩
  | 122 => ⟨S100000, .f32⟩
  | 123 => ⟨S100000, .f32⟩
  | 124 => ⟨S_, .f32⟩
  | 125 => ⟨S100000, .f32⟩
  | 126 => ⟨S1000000x1, .i32⟩
  | 127 => ⟨S100000, .f32⟩
  | _ => ⟨S100000x64, .f32⟩

abbrev hbmTy0_1 (i : Nat) : BufTy := match i % 128 with
  | 0 => ⟨S_, .f32⟩
  | 1 => ⟨S100000, .f32⟩
  | 2 => ⟨S100000, .f32⟩
  | 3 => ⟨S100000, .f32⟩
  | 4 => ⟨S100000x1, .f32⟩
  | 5 => ⟨S100000x64, .f32⟩
  | 6 => ⟨S100000x64, .f32⟩
  | 7 => ⟨S_, .i32⟩
  | 8 => ⟨S1000000, .i32⟩
  | 9 => ⟨S1000000, .i1⟩
  | 10 => ⟨S_, .i32⟩
  | 11 => ⟨S1000000, .i32⟩
  | 12 => ⟨S1000000, .i32⟩
  | 13 => ⟨S1000000, .i32⟩
  | 14 => ⟨S1000000x1, .i32⟩
  | 15 => ⟨S1000000x64, .f32⟩
  | 16 => ⟨S_, .f32⟩
  | 17 => ⟨S100000x64, .f32⟩
  | 18 => ⟨S1000000x1, .i32⟩
  | 19 => ⟨S100000x64, .f32⟩
  | 20 => ⟨S100000, .f32⟩
  | 21 => ⟨S100000x1, .f32⟩
  | 22 => ⟨S100000x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S_, .f32⟩
  | 29 => ⟨S100000x64, .f32⟩
  | 30 => ⟨S100000x64, .f32⟩
  | 31 => ⟨S_, .f32⟩
  | 32 => ⟨S500000, .f32⟩
  | 33 => ⟨S_, .f32⟩
  | 34 => ⟨S100000, .f32⟩
  | 35 => ⟨S500000x1, .i32⟩
  | 36 => ⟨S100000, .f32⟩
  | 37 => ⟨S_, .f32⟩
  | 38 => ⟨S100000, .f32⟩
  | 39 => ⟨S100000, .f32⟩
  | 40 => ⟨S_, .f32⟩
  | 41 => ⟨S60000, .f32⟩
  | 42 => ⟨S500000x1, .i32⟩
  | 43 => ⟨S60000, .f32⟩
  | 44 => ⟨S_, .f32⟩
  | 45 => ⟨S60000, .f32⟩
  | 46 => ⟨S60000, .f32⟩
  | 47 => ⟨S100000, .f32⟩
  | 48 => ⟨S100000x1, .f32⟩
  | 49 => ⟨S100000x64, .f32⟩
  | 50 => ⟨S100000x64, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x64, .f32⟩
  | 60 => ⟨S_, .f32⟩
  | 61 => ⟨S60000x64, .f32⟩
  | 62 => ⟨S500000x1, .i32⟩
  | 63 => ⟨S60000x64, .f32⟩
  | 64 => ⟨S60000, .f32⟩
  | 65 => ⟨S60000x1, .f32⟩
  | 66 => ⟨S60000x64, .f32⟩
  | 67 => ⟨S60000x64, .f32⟩
  | 68 => ⟨S60000x64, .f32⟩
  | 69 => ⟨S1x64, .f32⟩
  | 70 => ⟨S60000x64, .f32⟩
  | 71 => ⟨S60000x64, .f32⟩
  | 72 => ⟨S_, .f32⟩
  | 73 => ⟨S60000x64, .f32⟩
  | 74 => ⟨S60000x64, .f32⟩
  | 75 => ⟨S_, .f32⟩
  | 76 => ⟨S2000000, .f32⟩
  | 77 => ⟨S_, .f32⟩
  | 78 => ⟨S100000, .f32⟩
  | 79 => ⟨S2000000x1, .i32⟩
  | 80 => ⟨S100000, .f32⟩
  | 81 => ⟨S_, .f32⟩
  | 82 => ⟨S100000, .f32⟩
  | 83 => ⟨S100000, .f32⟩
  | 84 => ⟨S_, .f32⟩
  | 85 => ⟨S100000, .f32⟩
  | 86 => ⟨S2000000x1, .i32⟩
  | 87 => ⟨S100000, .f32⟩
  | 88 => ⟨S_, .f32⟩
  | 89 => ⟨S100000, .f32⟩
  | 90 => ⟨S100000, .f32⟩
  | 91 => ⟨S100000, .f32⟩
  | 92 => ⟨S100000x1, .f32⟩
  | 93 => ⟨S100000x64, .f32⟩
  | 94 => ⟨S100000x64, .f32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S2000000x1, .i32⟩
  | 103 => ⟨S2000000x64, .f32⟩
  | 104 => ⟨S_, .f32⟩
  | 105 => ⟨S100000x64, .f32⟩
  | 106 => ⟨S2000000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .f32⟩
  | 120 => ⟨S500000, .f32⟩
  | 121 => ⟨S_, .f32⟩
  | 122 => ⟨S100000, .f32⟩
  | 123 => ⟨S500000x1, .i32⟩
  | 124 => ⟨S100000, .f32⟩
  | 125 => ⟨S_, .f32⟩
  | 126 => ⟨S100000, .f32⟩
  | 127 => ⟨S100000, .f32⟩
  | _ => ⟨S100000x64, .f32⟩

abbrev hbmTy0_2 (i : Nat) : BufTy := match i % 128 with
  | 0 => ⟨S_, .f32⟩
  | 1 => ⟨S80000, .f32⟩
  | 2 => ⟨S500000x1, .i32⟩
  | 3 => ⟨S80000, .f32⟩
  | 4 => ⟨S_, .f32⟩
  | 5 => ⟨S80000, .f32⟩
  | 6 => ⟨S80000, .f32⟩
  | 7 => ⟨S100000, .f32⟩
  | 8 => ⟨S100000x1, .f32⟩
  | 9 => ⟨S100000x64, .f32⟩
  | 10 => ⟨S100000x64, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S500000x1, .i32⟩
  | 19 => ⟨S500000x64, .f32⟩
  | 20 => ⟨S_, .f32⟩
  | 21 => ⟨S80000x64, .f32⟩
  | 22 => ⟨S500000x1, .i32⟩
  | 23 => ⟨S80000x64, .f32⟩
  | 24 => ⟨S80000, .f32⟩
  | 25 => ⟨S80000x1, .f32⟩
  | 26 => ⟨S80000x64, .f32⟩
  | 27 => ⟨S80000x64, .f32⟩
  | 28 => ⟨S80000x64, .f32⟩
  | 29 => ⟨S1x64, .f32⟩
  | 30 => ⟨S80000x64, .f32⟩
  | 31 => ⟨S80000x64, .f32⟩
  | 32 => ⟨S_, .f32⟩
  | 33 => ⟨S80000x64, .f32⟩
  | 34 => ⟨S80000x64, .f32⟩
  | 35 => ⟨S_, .f32⟩
  | 36 => ⟨S1000000, .f32⟩
  | 37 => ⟨S_, .f32⟩
  | 38 => ⟨S100000, .f32⟩
  | 39 => ⟨S1000000x1, .i32⟩
  | 40 => ⟨S100000, .f32⟩
  | 41 => ⟨S_, .f32⟩
  | 42 => ⟨S100000, .f32⟩
  | 43 => ⟨S100000, .f32⟩
  | 44 => ⟨S_, .f32⟩
  | 45 => ⟨S100000, .f32⟩
  | 46 => ⟨S1000000x1, .i32⟩
  | 47 => ⟨S100000, .f32⟩
  | 48 => ⟨S_, .f32⟩
  | 49 => ⟨S100000, .f32⟩
  | 50 => ⟨S100000, .f32⟩
  | 51 => ⟨S100000, .f32⟩
  | 52 => ⟨S100000x1, .f32⟩
  | 53 => ⟨S100000x64, .f32⟩
  | 54 => ⟨S100000x64, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x64, .f32⟩
  | 64 => ⟨S_, .f32⟩
  | 65 => ⟨S100000x64, .f32⟩
  | 66 => ⟨S1000000x1, .i32⟩
  | 67 => ⟨S100000x64, .f32⟩
  | 68 => ⟨S100000, .f32⟩
  | 69 => ⟨S100000x1, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .f32⟩
  | 80 => ⟨S500000, .f32⟩
  | 81 => ⟨S_, .f32⟩
  | 82 => ⟨S100000, .f32⟩
  | 83 => ⟨S500000x1, .i32⟩
  | 84 => ⟨S100000, .f32⟩
  | 85 => ⟨S_, .f32⟩
  | 86 => ⟨S100000, .f32⟩
  | 87 => ⟨S100000, .f32⟩
  | 88 => ⟨S_, .f32⟩
  | 89 => ⟨S60000, .f32⟩
  | 90 => ⟨S500000x1, .i32⟩
  | 91 => ⟨S60000, .f32⟩
  | 92 => ⟨S_, .f32⟩
  | 93 => ⟨S60000, .f32⟩
  | 94 => ⟨S60000, .f32⟩
  | 95 => ⟨S100000, .f32⟩
  | 96 => ⟨S100000x1, .f32⟩
  | 97 => ⟨S100000x64, .f32⟩
  | 98 => ⟨S100000x64, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x64, .f32⟩
  | 108 => ⟨S_, .f32⟩
  | 109 => ⟨S60000x64, .f32⟩
  | 110 => ⟨S500000x1, .i32⟩
  | 111 => ⟨S60000x64, .f32⟩
  | 112 => ⟨S60000, .f32⟩
  | 113 => ⟨S60000x1, .f32⟩
  | 114 => ⟨S60000x64, .f32⟩
  | 115 => ⟨S60000x64, .f32⟩
  | 116 => ⟨S60000x64, .f32⟩
  | 117 => ⟨S1x64, .f32⟩
  | 118 => ⟨S60000x64, .f32⟩
  | 119 => ⟨S60000x64, .f32⟩
  | 120 => ⟨S_, .f32⟩
  | 121 => ⟨S60000x64, .f32⟩
  | 122 => ⟨S60000x64, .f32⟩
  | 123 => ⟨S100000x2, .f32⟩
  | 124 => ⟨S1x2, .f32⟩
  | 125 => ⟨S100000x2, .f32⟩
  | 126 => ⟨S100000x2, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_cst_0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst_1 : Ref sig .tc := ⟨.hbm, 33, rfl⟩
abbrev main_v4 : Ref sig .tc := ⟨.hbm, 34, rfl⟩
abbrev main_v5 : Ref sig .tc := ⟨.hbm, 35, rfl⟩
abbrev main_cst_2 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_3 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_c : Ref sig .tc := ⟨.hbm, 47, rfl⟩
abbrev main_v15 : Ref sig .tc := ⟨.hbm, 48, rfl⟩
abbrev main_v16 : Ref sig .tc := ⟨.hbm, 49, rfl⟩
abbrev main_c_4 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_5 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_call0_cst : Ref sig .tc := ⟨.hbm, 68, rfl⟩
abbrev main_call0_v0 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_cst_7 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_v39 : Ref sig .tc := ⟨.hbm, 79, rfl⟩
abbrev main_cst_9 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_10 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_c_11 : Ref sig .tc := ⟨.hbm, 91, rfl⟩
abbrev main_v49 : Ref sig .tc := ⟨.hbm, 92, rfl⟩
abbrev main_v50 : Ref sig .tc := ⟨.hbm, 93, rfl⟩
abbrev main_c_12 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_13 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call1_cst : Ref sig .tc := ⟨.hbm, 112, rfl⟩
abbrev main_call1_v0 : Ref sig .tc := ⟨.hbm, 113, rfl⟩
abbrev main_v67 : Ref sig .tc := ⟨.hbm, 114, rfl⟩
abbrev main_cst_14 : Ref sig .tc := ⟨.hbm, 115, rfl⟩
abbrev main_v68 : Ref sig .tc := ⟨.hbm, 116, rfl⟩
abbrev main_cst_15 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_16 : Ref sig .tc := ⟨.hbm, 121, rfl⟩
abbrev main_v72 : Ref sig .tc := ⟨.hbm, 122, rfl⟩
abbrev main_v73 : Ref sig .tc := ⟨.hbm, 123, rfl⟩
abbrev main_cst_17 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_18 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_19 : Ref sig .tc := ⟨.hbm, 135, rfl⟩
abbrev main_v83 : Ref sig .tc := ⟨.hbm, 136, rfl⟩
abbrev main_v84 : Ref sig .tc := ⟨.hbm, 137, rfl⟩
abbrev main_c_20 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_cst_21 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_call2_cst : Ref sig .tc := ⟨.hbm, 156, rfl⟩
abbrev main_call2_v0 : Ref sig .tc := ⟨.hbm, 157, rfl⟩
abbrev main_v101 : Ref sig .tc := ⟨.hbm, 158, rfl⟩
abbrev main_cst_22 : Ref sig .tc := ⟨.hbm, 159, rfl⟩
abbrev main_v102 : Ref sig .tc := ⟨.hbm, 160, rfl⟩
abbrev main_cst_23 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_24 : Ref sig .tc := ⟨.hbm, 165, rfl⟩
abbrev main_v106 : Ref sig .tc := ⟨.hbm, 166, rfl⟩
abbrev main_v107 : Ref sig .tc := ⟨.hbm, 167, rfl⟩
abbrev main_cst_25 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_26 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_c_27 : Ref sig .tc := ⟨.hbm, 179, rfl⟩
abbrev main_v117 : Ref sig .tc := ⟨.hbm, 180, rfl⟩
abbrev main_v118 : Ref sig .tc := ⟨.hbm, 181, rfl⟩
abbrev main_c_28 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_cst_29 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_call3_cst : Ref sig .tc := ⟨.hbm, 200, rfl⟩
abbrev main_call3_v0 : Ref sig .tc := ⟨.hbm, 201, rfl⟩
abbrev main_v135 : Ref sig .tc := ⟨.hbm, 202, rfl⟩
abbrev main_cst_30 : Ref sig .tc := ⟨.hbm, 203, rfl⟩
abbrev main_v136 : Ref sig .tc := ⟨.hbm, 204, rfl⟩
abbrev main_cst_31 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_cst_32 : Ref sig .tc := ⟨.hbm, 209, rfl⟩
abbrev main_v140 : Ref sig .tc := ⟨.hbm, 210, rfl⟩
abbrev main_v141 : Ref sig .tc := ⟨.hbm, 211, rfl⟩
abbrev main_cst_33 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_cst_34 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_c_35 : Ref sig .tc := ⟨.hbm, 223, rfl⟩
abbrev main_v151 : Ref sig .tc := ⟨.hbm, 224, rfl⟩
abbrev main_v152 : Ref sig .tc := ⟨.hbm, 225, rfl⟩
abbrev main_c_36 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_cst_37 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_call4_cst : Ref sig .tc := ⟨.hbm, 244, rfl⟩
abbrev main_call4_v0 : Ref sig .tc := ⟨.hbm, 245, rfl⟩
abbrev main_v169 : Ref sig .tc := ⟨.hbm, 246, rfl⟩
abbrev main_cst_38 : Ref sig .tc := ⟨.hbm, 247, rfl⟩
abbrev main_v170 : Ref sig .tc := ⟨.hbm, 248, rfl⟩
abbrev main_cst_39 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_cst_40 : Ref sig .tc := ⟨.hbm, 253, rfl⟩
abbrev main_v174 : Ref sig .tc := ⟨.hbm, 254, rfl⟩
abbrev main_v175 : Ref sig .tc := ⟨.hbm, 255, rfl⟩
abbrev main_cst_41 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_cst_42 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_c_43 : Ref sig .tc := ⟨.hbm, 267, rfl⟩
abbrev main_v185 : Ref sig .tc := ⟨.hbm, 268, rfl⟩
abbrev main_v186 : Ref sig .tc := ⟨.hbm, 269, rfl⟩
abbrev main_c_44 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_cst_45 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_call5_cst : Ref sig .tc := ⟨.hbm, 288, rfl⟩
abbrev main_call5_v0 : Ref sig .tc := ⟨.hbm, 289, rfl⟩
abbrev main_v203 : Ref sig .tc := ⟨.hbm, 290, rfl⟩
abbrev main_cst_46 : Ref sig .tc := ⟨.hbm, 291, rfl⟩
abbrev main_v204 : Ref sig .tc := ⟨.hbm, 292, rfl⟩
abbrev main_cst_47 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_cst_48 : Ref sig .tc := ⟨.hbm, 297, rfl⟩
abbrev main_v208 : Ref sig .tc := ⟨.hbm, 298, rfl⟩
abbrev main_v209 : Ref sig .tc := ⟨.hbm, 299, rfl⟩
abbrev main_cst_49 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_cst_50 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_c_51 : Ref sig .tc := ⟨.hbm, 311, rfl⟩
abbrev main_v219 : Ref sig .tc := ⟨.hbm, 312, rfl⟩
abbrev main_v220 : Ref sig .tc := ⟨.hbm, 313, rfl⟩
abbrev main_c_52 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_cst_53 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_call6_cst : Ref sig .tc := ⟨.hbm, 332, rfl⟩
abbrev main_call6_v0 : Ref sig .tc := ⟨.hbm, 333, rfl⟩
abbrev main_v237 : Ref sig .tc := ⟨.hbm, 334, rfl⟩
abbrev main_cst_54 : Ref sig .tc := ⟨.hbm, 335, rfl⟩
abbrev main_v238 : Ref sig .tc := ⟨.hbm, 336, rfl⟩
abbrev main_cst_55 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_cst_56 : Ref sig .tc := ⟨.hbm, 341, rfl⟩
abbrev main_v242 : Ref sig .tc := ⟨.hbm, 342, rfl⟩
abbrev main_v243 : Ref sig .tc := ⟨.hbm, 343, rfl⟩
abbrev main_cst_57 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_cst_58 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_c_59 : Ref sig .tc := ⟨.hbm, 355, rfl⟩
abbrev main_v253 : Ref sig .tc := ⟨.hbm, 356, rfl⟩
abbrev main_v254 : Ref sig .tc := ⟨.hbm, 357, rfl⟩
abbrev main_c_60 : Ref sig .tc := ⟨.hbm, 358, rfl⟩
abbrev main_v255 : Ref sig .tc := ⟨.hbm, 359, rfl⟩
abbrev main_v256 : Ref sig .tc := ⟨.hbm, 360, rfl⟩
abbrev main_v257 : Ref sig .tc := ⟨.hbm, 361, rfl⟩
abbrev main_v258 : Ref sig .tc := ⟨.hbm, 362, rfl⟩
abbrev main_v259 : Ref sig .tc := ⟨.hbm, 363, rfl⟩
abbrev main_cst_61 : Ref sig .tc := ⟨.hbm, 364, rfl⟩
abbrev main_v260 : Ref sig .tc := ⟨.hbm, 365, rfl⟩
abbrev main_v261 : Ref sig .tc := ⟨.hbm, 366, rfl⟩
abbrev main_v262 : Ref sig .tc := ⟨.hbm, 367, rfl⟩
abbrev main_v263 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_v267 : Ref sig .tc := ⟨.hbm, 372, rfl⟩
abbrev main_v268 : Ref sig .tc := ⟨.hbm, 373, rfl⟩
abbrev main_v269 : Ref sig .tc := ⟨.hbm, 374, rfl⟩
abbrev main_v270 : Ref sig .tc := ⟨.hbm, 375, rfl⟩
abbrev main_call7_cst : Ref sig .tc := ⟨.hbm, 376, rfl⟩
abbrev main_call7_v0 : Ref sig .tc := ⟨.hbm, 377, rfl⟩
abbrev main_v271 : Ref sig .tc := ⟨.hbm, 378, rfl⟩
abbrev main_v272 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S80000 : S_.BroadcastsInDim S80000 (![] : Fin 0 → Fin S80000.rank)
  bcast_S_S80000x64 : S_.BroadcastsInDim S80000x64 (![] : Fin 0 → Fin S80000x64.rank)
  bcast_S80000_S80000x1_0 : S80000.BroadcastsInDim S80000x1 (![0] : Fin 1 → Fin S80000x1.rank)
  bcast_S80000x1_S80000x64_0_1 : S80000x1.BroadcastsInDim S80000x64 (![0, 1] : Fin 2 → Fin S80000x64.rank)
  bcast_S1x64_S80000x64_0_1 : S1x64.BroadcastsInDim S80000x64 (![0, 1] : Fin 2 → Fin S80000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S60000 : S_.BroadcastsInDim S60000 (![] : Fin 0 → Fin S60000.rank)
  bcast_S_S60000x64 : S_.BroadcastsInDim S60000x64 (![] : Fin 0 → Fin S60000x64.rank)
  bcast_S60000_S60000x1_0 : S60000.BroadcastsInDim S60000x1 (![0] : Fin 1 → Fin S60000x1.rank)
  bcast_S60000x1_S60000x64_0_1 : S60000x1.BroadcastsInDim S60000x64 (![0, 1] : Fin 2 → Fin S60000x64.rank)
  bcast_S1x64_S60000x64_0_1 : S1x64.BroadcastsInDim S60000x64 (![0, 1] : Fin 2 → Fin S60000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  dot_S100000x64_S64x64_S100000x64_1_0_0_1_n_n_wf : DotDims.WF S100000x64 S64x64 S100000x64 [1] [0] [0] [1] [] []
  scatter_S100000_S500000x1_S500000_n_0_0_1_wf : ScatterDims.WF S100000 S500000x1 S500000 [] [0] [0] 1
  scatter_S80000_S500000x1_S500000_n_0_0_1_wf : ScatterDims.WF S80000 S500000x1 S500000 [] [0] [0] 1
  gather_S100000x64_S500000x1_S500000x64_1_0_n_n_0_1_164_wf : GatherDims.WF S100000x64 S500000x1 S500000x64 [1] [0] [] [0] [] 1 ![1, 64]
  scatter_S80000x64_S500000x1_S500000x64_1_0_0_1_wf : ScatterDims.WF S80000x64 S500000x1 S500000x64 [1] [0] [0] 1
  dot_S80000x64_S64x64_S80000x64_1_0_0_1_n_n_wf : DotDims.WF S80000x64 S64x64 S80000x64 [1] [0] [0] [1] [] []
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S60000_S500000x1_S500000_n_0_0_1_wf : ScatterDims.WF S60000 S500000x1 S500000 [] [0] [0] 1
  scatter_S60000x64_S500000x1_S500000x64_1_0_0_1_wf : ScatterDims.WF S60000x64 S500000x1 S500000x64 [1] [0] [0] 1
  dot_S60000x64_S64x64_S60000x64_1_0_0_1_n_n_wf : DotDims.WF S60000x64 S64x64 S60000x64 [1] [0] [0] [1] [] []
  dot_S100000x64_S64x2_S100000x2_1_0_0_1_n_n_wf : DotDims.WF S100000x64 S64x2 S100000x2 [1] [0] [0] [1] [] []

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S80000_S500000x1_S500000_n_0_0_1 : ScatterDims S80000 S500000x1 S500000 where
  updateWindowDims := []
  insertedWindowDims := [0]
  scatterDimsToOperandDims := [0]
  indexVectorDim := 1
  wf := scatter_S80000_S500000x1_S500000_n_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S80000x64_S500000x1_S500000x64_1_0_0_1 : ScatterDims S80000x64 S500000x1 S500000x64 where
  updateWindowDims := [1]
  insertedWindowDims := [0]
  scatterDimsToOperandDims := [0]
  indexVectorDim := 1
  wf := scatter_S80000x64_S500000x1_S500000x64_1_0_0_1_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S60000_S500000x1_S500000_n_0_0_1 : ScatterDims S60000 S500000x1 S500000 where
  updateWindowDims := []
  insertedWindowDims := [0]
  scatterDimsToOperandDims := [0]
  indexVectorDim := 1
  wf := scatter_S60000_S500000x1_S500000_n_0_0_1_wf
def scatter_S60000x64_S500000x1_S500000x64_1_0_0_1 : ScatterDims S60000x64 S500000x1 S500000x64 where
  updateWindowDims := [1]
  insertedWindowDims := [0]
  scatterDimsToOperandDims := [0]
  indexVectorDim := 1
  wf := scatter_S60000x64_S500000x1_S500000x64_1_0_0_1_wf
def dot_S60000x64_S64x64_S60000x64_1_0_0_1_n_n : DotDims S60000x64 S64x64 S60000x64 where
  lhsContracting := [1]
  rhsContracting := [0]
  lhsNonContracting := [0]
  rhsNonContracting := [1]
  lhsBatch := []
  rhsBatch := []
  wf := dot_S60000x64_S64x64_S60000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.KernelBody.lean ====
/-
  The two kernel bodies, each read at ONE entry of the block it stores.

  Layer 1's body, on a tile of 5000 nodes: entry (p, k) of the stored block is
  max (∑ j, (x (p, j) · s (p, 0)) · W (j, k) + b (0, k), 0) · s (p, 1), where x is the tile of aggregated messages, s the
  tile of the two per-node scale columns (column 0 scales the input rows, column 1 the result), W the weights and b the
  bias row. Layer 2's body, fused with the read-out: entry (p, q) is
  ∑ k, max (∑ j, (x (p, j) · s (p, 0)) · W (j, k) + b (0, k), 0) · Wfc (k, q) + bfc (0, q).
  At the ideal values a narrowing or widening of the float format is the identity, a matrix product into a zero
  accumulator is the plain sum over the contracted coordinate, and a broadcast reads its operand at the coordinates
  it keeps; nothing else is used.
-/
import proofs.«422056_j89369679495193_3_alg».proof.Proof.Gen.KernelIdeal.Skeleton
import proofs.«422056_j89369679495193_3_alg».proof.Proof.LibOneAxisContraction
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen
open Cert.KernelIdeal.Facts₀ Cert.KernelIdeal.Facts
open scoped BigOperators

/-! ## Which operand entries meet at a result entry and a contraction position -/

theorem lhsA_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsA_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhsA_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhsA_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem lhsB_0 (i : S5000x2.Idx) (q : dot_S5000x64_S64x2_S5000x2_1_0_0_1_n_n.contr.Idx) : (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem lhsB_1 (i : S5000x2.Idx) (q : dot_S5000x64_S64x2_S5000x2_1_0_0_1_n_n.contr.Idx) : (dot_S5000x64_S64x2_S5000x2_1_0_0_1_n_n.lhsIdx i q 1).val = (q ⟨0, by decide⟩).val :=
  dot_S5000x64_S64x2_S5000x2_1_0_0_1_n_n.lhsIdx_val_of_single rfl i q
theorem rhsB_0 (i : S5000x2.Idx) (q : dot_S5000x64_S64x2_S5000x2_1_0_0_1_n_n.contr.Idx) : (dot_S5000x64_S64x2_S5000x2_1_0_0_1_n_n.rhsIdx i q 0).val = (q ⟨0, by decide⟩).val :=
  dot_S5000x64_S64x2_S5000x2_1_0_0_1_n_n.rhsIdx_val_of_single rfl i q
theorem rhsB_1 (i : S5000x2.Idx) (q : dot_S5000x64_S64x2_S5000x2_1_0_0_1_n_n.contr.Idx) : (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- The 64-wide product into a zero accumulator, at entry (p, k). -/
theorem matmulA_apply (X : FVec Ideal S5000x64 .bf16) (Y : FVec Ideal S64x64 .bf16) (p : Fin 5000) (k : Fin 64) :
    matmul dot_S5000x64_S64x64_S5000x64_1_0_0_1_n_n none X Y (constant S5000x64 .f32 0x00000000#32) (ix2 p k) = ∑ j : Fin 64, X (ix2 p j) * Y (ix2 j k) :=
  Cert.Dots.matmul_zero_apply_of dot_S5000x64_S64x64_S5000x64_1_0_0_1_n_n 64 rfl rfl none X Y (ix2 p k) (fun j => ix2 p j) (fun j => ix2 j k)
    (fun j => funext fun a => Fin.ext (by
      have hk := contrEquiv1_symm_val dot_S5000x64_S64x64_S5000x64_1_0_0_1_n_n 64 rfl rfl j
      match a with
      | ⟨0, _⟩ => exact lhsA_0 _ _
      | ⟨1, _⟩ => exact (lhsA_1 _ _).trans hk))
    (fun j => funext fun a => Fin.ext (by
      have hk := contrEquiv1_symm_val dot_S5000x64_S64x64_S5000x64_1_0_0_1_n_n 64 rfl rfl j
      match a with
      | ⟨0, _⟩ => exact (rhsA_0 _ _).trans hk
      | ⟨1, _⟩ => exact rhsA_1 _ _))

/-- The read-out's product, at entry (p, q). -/
theorem matmulB_apply (X : FVec Ideal S5000x64 .bf16) (Y : FVec Ideal S64x2 .bf16) (p : Fin 5000) (q : Fin 2) :
    matmul dot_S5000x64_S64x2_S5000x2_1_0_0_1_n_n none X Y (constant S5000x2 .f32 0x00000000#32) (ix2 p q) = ∑ k : Fin 64, X (ix2 p k) * Y (ix2 k q) :=
  Cert.Dots.matmul_zero_apply_of dot_S5000x64_S64x2_S5000x2_1_0_0_1_n_n 64 rfl rfl none X Y (ix2 p q) (fun k => ix2 p k) (fun k => ix2 k q)
    (fun j => funext fun a => Fin.ext (by
      have hk := contrEquiv1_symm_val dot_S5000x64_S64x2_S5000x2_1_0_0_1_n_n 64 rfl rfl j
      match a with
      | ⟨0, _⟩ => exact lhsB_0 _ _
      | ⟨1, _⟩ => exact (lhsB_1 _ _).trans hk))
    (fun j => funext fun a => Fin.ext (by
      have hk := contrEquiv1_symm_val dot_S5000x64_S64x2_S5000x2_1_0_0_1_n_n 64 rfl rfl j
      match a with
      | ⟨0, _⟩ => exact (rhsB_0 _ _).trans hk
      | ⟨1, _⟩ => exact rhsB_1 _ _))

/-! ## Broadcasts of a column and of a row over a tile -/

theorem spreadCol_apply (v : FVec Ideal S5000x1 .f32) (p : Fin 5000) (k : Fin 64) :
    broadcastTo S5000x64 v Facts₀.broadcasts_S5000x1_S5000x64 (ix2 p k) = v (ix2 p (0 : Fin 1)) :=
  broadcastTo_apply v Facts₀.broadcasts_S5000x1_S5000x64 (ix2 p k) (ix2 p (0 : Fin 1)) (fun a => by
    match a with
    | ⟨0, _⟩ => rfl
    | ⟨1, _⟩ => rfl)

theorem spreadRow64_apply (v : FVec Ideal S1x64 .f32) (p : Fin 5000) (k : Fin 64) :
    broadcastTo S5000x64 v Facts₀.broadcasts_S1x64_S5000x64 (ix2 p k) = v (ix2 (0 : Fin 1) k) :=
  broadcastTo_apply v Facts₀.broadcasts_S1x64_S5000x64 (ix2 p k) (ix2 (0 : Fin 1) k) (fun a => by
    match a with
    | ⟨0, _⟩ => rfl
    | ⟨1, _⟩ => rfl)

theorem spreadRow2_apply (v : FVec Ideal S1x2 .f32) (p : Fin 5000) (q : Fin 2) :
    broadcastTo S5000x2 v Facts₀.broadcasts_S1x2_S5000x2 (ix2 p q) = v (ix2 (0 : Fin 1) q) :=
  broadcastTo_apply v Facts₀.broadcasts_S1x2_S5000x2 (ix2 p q) (ix2 (0 : Fin 1) q) (fun a => by
    match a with
    | ⟨0, _⟩ => rfl
    | ⟨1, _⟩ => rfl)

/-! ## The stored values at an entry -/

/-- The clamped pre-activation of a tile at (p, k). -/
def tileAct (x : Vec Ideal S5000x64 .f32) (s : Vec Ideal S5000x1 .f32) (W : Vec Ideal S64x64 .f32) (b : Vec Ideal S1x64 .f32)
    (p : Fin 5000) (k : Fin 64) : Ideal .f32 :=
  max (∑ j : Fin 64, (x (ix2 p j) * s (ix2 p (0 : Fin 1))) * W (ix2 j k) + b (ix2 (0 : Fin 1) k)) (Scalar.ofBits (F := Ideal) .f32 0x00000000#32)

theorem pay0_apply (v0 v2 : Vec Ideal S5000x1 .f32) (v4 : Vec Ideal S5000x64 .f32) (v9 : Vec Ideal S64x64 .f32) (v12 : Vec Ideal S1x64 .f32)
    (p : Fin 5000) (k : Fin 64) :
    k0_pay1 v0 v2 v4 v9 v12 (ix2 p k) = tileAct v4 v0 v9 v12 p k * v2 (ix2 p (0 : Fin 1)) := by
  unfold k0_pay1 tileAct
  simp only [shapeCast_self, truncf_apply, mulf_apply, addf_apply, maximumf_apply, broadcast_apply, matmulA_apply, spreadCol_apply, spreadRow64_apply]

theorem pay1_apply (v0 : Vec Ideal S5000x1 .f32) (v2 : Vec Ideal S5000x64 .f32) (v7 : Vec Ideal S64x64 .f32) (v10 : Vec Ideal S1x64 .f32)
    (v17 : Vec Ideal S64x2 .f32) (v20 : Vec Ideal S1x2 .f32) (p : Fin 5000) (q : Fin 2) :
    k1_pay1 v0 v2 v7 v10 v17 v20 (ix2 p q) = ∑ k : Fin 64, tileAct v2 v0 v7 v10 p k * v17 (ix2 k q) + v20 (ix2 (0 : Fin 1) q) := by
  unfold k1_pay1 tileAct
  simp only [shapeCast_self, truncf_apply, mulf_apply, addf_apply, maximumf_apply, broadcast_apply, matmulA_apply, matmulB_apply, spreadCol_apply, spreadRow64_apply, spreadRow2_apply]

end Cert.KernelIdeal.Body

end
-- ==== Proof.KernelLayer1.lean ====
/-
  What the first pallas_call leaves in its result array, as ONE function of the arrays it reads.

  The call tiles the hundred thousand nodes into twenty tiles of 5000 rows; tile t reads rows 5000·t … 5000·t + 4999 of
  the aggregated messages and of the two scale columns, the whole weight matrix and the whole bias row, and writes the
  same rows of the result. So entry (r, k) of the result array is
  max (∑ j, (a (r, j) · s (r, 0)) · W (j, k) + b (0, k), 0) · s (r, 1)
  whatever tile r falls in: each written block is the restriction of that one function (`flushed_eq`), the twenty
  blocks cover the array (row r lies in tile r / 5000), hence the array after the call is that function (`final`).
  Everything is stated at the contents `V` the call finds on entry, whatever they are.
-/
import proofs.«422056_j89369679495193_3_alg».proof.Proof.Gen.KernelIdeal.Frame
import proofs.«422056_j89369679495193_3_alg».proof.Proof.KernelBody
import Idealize.ShloMosaic.Lib.Pipeline.Value
import Idealize.ShloMosaic.Lib.ValueIdx

set_option maxRecDepth 16384

noncomputable section

namespace Cert.KernelIdeal.Layer1

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Body
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The result, entry by entry -/

/-- Entry (r, k) of the first layer's scaled output from the arrays the call reads. -/
def entry (a : FVec Ideal S100000x64 .f32) (W : FVec Ideal S64x64 .f32) (b : FVec Ideal S1x64 .f32) (s : FVec Ideal S100000x2 .f32)
    (r : Fin 100000) (k : Fin 64) : Ideal .f32 :=
  max (∑ j : Fin 64, (a (ix2 r j) * s (ix2 r (0 : Fin 2))) * W (ix2 j k) + b (ix2 (0 : Fin 1) k)) (Scalar.ofBits (F := Ideal) .f32 0x00000000#32)
    * s (ix2 r (1 : Fin 2))

/-- The whole result array. -/
def result (a : FVec Ideal S100000x64 .f32) (W : FVec Ideal S64x64 .f32) (b : FVec Ideal S1x64 .f32) (s : FVec Ideal S100000x2 .f32) :
    FVec Ideal S100000x64 .bf16 :=
  fun i => entry a W b s ⟨(i 0).val, idx2_lt0 i⟩ ⟨(i 1).val, idx2_lt1 i⟩

/-! ## The two scale columns of a tile -/

theorem ldCol0 (x3 : Vec Ideal S5000x2 .f32) (p : Fin 5000) : View.ld x3 r0_0 (ix2 p (0 : Fin 1)) = x3 (ix2 p (0 : Fin 2)) :=
  congrArg x3 (funext fun a => Fin.ext (by
    match a with
    | ⟨0, _⟩ => show 0 + 1 * p.val = p.val; omega
    | ⟨1, _⟩ => show 0 + 1 * 0 = 0; rfl))

theorem ldCol1 (x3 : Vec Ideal S5000x2 .f32) (p : Fin 5000) : View.ld x3 r0_1 (ix2 p (0 : Fin 1)) = x3 (ix2 p (1 : Fin 2)) :=
  congrArg x3 (funext fun a => Fin.ext (by
    match a with
    | ⟨0, _⟩ => show 0 + 1 * p.val = p.val; omega
    | ⟨1, _⟩ => show 1 + 1 * 0 = 1; rfl))

/-- A tile's stored entry from the arrays, once each loaded block is known to be rows of its array. -/
theorem tile_entry (a : FVec Ideal S100000x64 .f32) (W : FVec Ideal S64x64 .f32) (b : FVec Ideal S1x64 .f32) (s : FVec Ideal S100000x2 .f32)
    (x0 : Vec Ideal S5000x64 .f32) (x1 : Vec Ideal S64x64 .f32) (x2 : Vec Ideal S1x64 .f32) (x3 : Vec Ideal S5000x2 .f32)
    (r : Fin 100000) (p : Fin 5000) (k : Fin 64)
    (h0 : ∀ j : Fin 64, x0 (ix2 p j) = a (ix2 r j)) (h1 : ∀ j : Fin 64, x1 (ix2 j k) = W (ix2 j k))
    (h2 : x2 (ix2 (0 : Fin 1) k) = b (ix2 (0 : Fin 1) k))
    (h30 : x3 (ix2 p (0 : Fin 2)) = s (ix2 r (0 : Fin 2))) (h31 : x3 (ix2 p (1 : Fin 2)) = s (ix2 r (1 : Fin 2))) :
    k0_pay1 (View.ld x3 r0_0) (View.ld x3 r0_1) x0 x1 x2 (ix2 p k) = entry a W b s r k := by
  rw [pay0_apply]
  unfold tileAct entry
  rw [ldCol0, ldCol1, h30, h31, h2]
  simp only [h0, h1]

/-! ## The blocks a tile loads are rows of the arrays -/

/-- Where the five windows sit at tile `t`: the three tiled ones at block row `t`, the two whole ones at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The tile of aggregated messages. -/
abbrev xb (c : Dev nD) (t : Fin cfg0.N) : Vec Ideal S5000x64 .f32 := iblk0 V c 0 t
/-- The weights as the tile sees them. -/
abbrev wb (c : Dev nD) (t : Fin cfg0.N) : Vec Ideal S64x64 .f32 := iblk0 V c 1 t
/-- The bias row as the tile sees it. -/
abbrev bb (c : Dev nD) (t : Fin cfg0.N) : Vec Ideal S1x64 .f32 := iblk0 V c 2 t
/-- The tile of the two scale columns. -/
abbrev sb (c : Dev nD) (t : Fin cfg0.N) : Vec Ideal S5000x2 .f32 := iblk0 V c 3 t

theorem xb_apply (c : Dev nD) (t : Fin cfg0.N) (p : Fin 5000) (j : Fin 64) (i : S100000x64.Idx)
    (hi0 : (i 0).val = t.val * 5000 + p.val) (hi1 : (i 1).val = j.val) :
    xb V c t (ix2 p j) = (V c main_v27 : S100000x64.Idx → Ideal .f32) i := by
  obtain ⟨e0, e1, -⟩ := idx_facts t
  show iblk0 V c 0 t (ix2 p j) = _
  unfold iblk0
  rw [View.read_apply]
  show V c main_v27 _ = V c main_v27 _
  congr 1
  funext a
  apply Fin.ext
  match a with
  | ⟨0, _⟩ => show win0_0.index t (0 : Fin 2) * 5000 + 1 * p.val = (i 0).val; rw [e0, hi0]; omega
  | ⟨1, _⟩ => show win0_0.index t (1 : Fin 2) * 64 + 1 * j.val = (i 1).val; rw [e1, hi1]; omega

theorem wb_apply (c : Dev nD) (t : Fin cfg0.N) (j k : Fin 64) :
    wb V c t (ix2 j k) = (V c main_arg1 : S64x64.Idx → Ideal .f32) (ix2 j k) := by
  obtain ⟨-, -, e0, e1, -⟩ := idx_facts t
  show iblk0 V c 1 t (ix2 j k) = _
  unfold iblk0
  rw [View.read_apply]
  show V c main_arg1 _ = V c main_arg1 _
  congr 1
  funext a
  apply Fin.ext
  match a with
  | ⟨0, _⟩ => show win0_1.index t (0 : Fin 2) * 64 + 1 * j.val = j.val; rw [e0]; omega
  | ⟨1, _⟩ => show win0_1.index t (1 : Fin 2) * 64 + 1 * k.val = k.val; rw [e1]; omega

theorem bb_apply (c : Dev nD) (t : Fin cfg0.N) (k : Fin 64) :
    bb V c t (ix2 (0 : Fin 1) k) = (V c main_v31 : S1x64.Idx → Ideal .f32) (ix2 (0 : Fin 1) k) := by
  obtain ⟨-, -, -, -, e0, e1, -⟩ := idx_facts t
  show iblk0 V c 2 t (ix2 (0 : Fin 1) k) = _
  unfold iblk0
  rw [View.read_apply]
  show V c main_v31 _ = V c main_v31 _
  congr 1
  funext a
  apply Fin.ext
  match a with
  | ⟨0, _⟩ => show win0_2.index t (0 : Fin 2) * 1 + 1 * 0 = 0; rw [e0]
  | ⟨1, _⟩ => show win0_2.index t (1 : Fin 2) * 64 + 1 * k.val = k.val; rw [e1]; omega

theorem sb_apply (c : Dev nD) (t : Fin cfg0.N) (p : Fin 5000) (q : Fin 2) (i : S100000x2.Idx)
    (hi0 : (i 0).val = t.val * 5000 + p.val) (hi1 : (i 1).val = q.val) :
    sb V c t (ix2 p q) = (V c main_v30 : S100000x2.Idx → Ideal .f32) i := by
  obtain ⟨-, -, -, -, -, -, e0, e1, -⟩ := idx_facts t
  show iblk0 V c 3 t (ix2 p q) = _
  unfold iblk0
  rw [View.read_apply]
  show V c main_v30 _ = V c main_v30 _
  congr 1
  funext a
  apply Fin.ext
  match a with
  | ⟨0, _⟩ => show win0_3.index t (0 : Fin 2) * 5000 + 1 * p.val = (i 0).val; rw [e0, hi0]; omega
  | ⟨1, _⟩ => show win0_3.index t (1 : Fin 2) * 2 + 1 * q.val = (i 1).val; rw [e1, hi1]; omega

/-! ## Each written block is the restriction of `result`; the blocks cover; the array -/

theorem flushed_eq (c : Dev nD) (t : Fin cfg0.N) :
    (dat0 V c).flushed 4 t = ((cfg0.win 4).blk t).view.read (Elt Ideal) (result (V c main_v27) (V c main_arg1) (V c main_v31) (V c main_v30)) := by
  show (cfg0.win 4).cut (grid0.coords t) ((dat0 V c).after 4 t) = _
  rw [after0_4]
  unfold out0_4
  rw [View.canon_unit_zero hz]
  simp only [View.ld_unit_zero (S := S5000x64) hz, View.ld_unit_zero (S := S64x64) hz, View.ld_unit_zero (S := S1x64) hz]
  obtain ⟨-, -, -, -, -, -, -, -, e0, e1⟩ := idx_facts t
  funext y
  obtain ⟨p, k, rfl⟩ : ∃ (p : Fin 5000) (k : Fin 64), y = ix2 p k := ⟨y 0, y 1, eq_ix2 y⟩
  rw [View.read_apply]
  have h0 : ((((cfg0.win 4).blk t).view.emb (ix2 p k)) 0).val = t.val * 5000 + p.val := by
    show win0_4.index t (0 : Fin 2) * 5000 + 1 * p.val = _; rw [e0]; omega
  have h1 : ((((cfg0.win 4).blk t).view.emb (ix2 p k)) 1).val = k.val := by
    show win0_4.index t (1 : Fin 2) * 64 + 1 * k.val = _; rw [e1]; omega
  show k0_pay1 (View.ld (sb V c t) r0_0) (View.ld (sb V c t) r0_1) (xb V c t) (wb V c t) (bb V c t) (ix2 p k)
    = entry (V c main_v27) (V c main_arg1) (V c main_v31) (V c main_v30) ⟨_, _⟩ ⟨_, _⟩
  have hk : (⟨((((cfg0.win 4).blk t).view.emb (ix2 p k)) 1).val, idx2_lt1 _⟩ : Fin 64) = k := Fin.ext h1
  rw [hk]
  exact tile_entry (V c main_v27) (V c main_arg1) (V c main_v31) (V c main_v30) (xb V c t) (wb V c t) (bb V c t) (sb V c t) _ p k
    (fun j => xb_apply V c t p j _ h0 rfl) (fun j => wb_apply V c t j k) (bb_apply V c t k)
    (sb_apply V c t p 0 _ h0 rfl) (sb_apply V c t p 1 _ h0 rfl)

/-- Row `r` lies in tile `r / 5000`. -/
theorem cover (i : S100000x64.Idx) : ∃ t : Fin cfg0.N, (cfg0.win 4).flush t = true ∧ i ∈ ((cfg0.win 4).blk t).view.set := by
  have hi0 : (i 0).val < 100000 := idx2_lt0 i
  have hi1 : (i 1).val < 64 := idx2_lt1 i
  let t : Fin cfg0.N := ⟨(i 0).val / 5000, by rw [show cfg0.N = 20 from N_0]; omega⟩
  obtain ⟨-, -, -, -, -, -, -, -, e0, e1⟩ := idx_facts t
  refine ⟨t, flush0_4 t, ?_⟩
  show i ∈ ((View.whole main_v32).slice (win0_4.rect t)).set
  rw [View.set_slice_whole, Rect.mem_set_unit]
  intro a
  match a with
  | ⟨0, _⟩ =>
    show win0_4.index t (0 : Fin 2) * 5000 ≤ (i 0).val ∧ (i 0).val < win0_4.index t (0 : Fin 2) * 5000 + 5000
    rw [e0]; show (i 0).val / 5000 * 5000 ≤ (i 0).val ∧ (i 0).val < (i 0).val / 5000 * 5000 + 5000; omega
  | ⟨1, _⟩ =>
    show win0_4.index t (1 : Fin 2) * 64 ≤ (i 1).val ∧ (i 1).val < win0_4.index t (1 : Fin 2) * 64 + 64
    rw [e1]; omega

/-- THE ARRAY the first call leaves: `result` of the arrays it read. -/
theorem final (c : Dev nD) :
    (dat0 V c).arrAt 4 cfg0.N = result (V c main_v27) (V c main_arg1) (V c main_v31) (V c main_v30) :=
  (dat0 V c).arrAt_eq_of_cover 4 _ (fun t _ => flushed_eq V c t) cover

end Cert.KernelIdeal.Layer1

end
-- ==== Proof.KernelLayer2.lean ====
/-
  What the second pallas_call leaves in its result array, as ONE function of the arrays it reads.

  As in the first call the hundred thousand nodes are tiled into twenty tiles of 5000 rows; tile t reads rows
  5000·t … 5000·t + 4999 of the aggregated messages and of the scale column, the whole second-layer weights and bias row
  and the whole read-out weights and bias row, and writes the same rows of the two-column result. Entry (r, q) of the
  result array is
  ∑ k, max (∑ j, (a (r, j) · s (r, 0)) · W (j, k) + b (0, k), 0) · Wfc (k, q) + bfc (0, q):
  each written block is the restriction of that function, the blocks cover the array, so the array after the call is
  that function — at the contents `V` the call finds on entry, whatever they are.
-/
import proofs.«422056_j89369679495193_3_alg».proof.Proof.Gen.KernelIdeal.Frame
import proofs.«422056_j89369679495193_3_alg».proof.Proof.KernelBody
import Idealize.ShloMosaic.Lib.Pipeline.Value
import Idealize.ShloMosaic.Lib.ValueIdx

set_option maxRecDepth 16384

noncomputable section

namespace Cert.KernelIdeal.Layer2

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Body
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-! ## The result, entry by entry -/

/-- Entry (r, q) of the network's output from the arrays the call reads. -/
def entry (a : FVec Ideal S100000x64 .f32) (W : FVec Ideal S64x64 .f32) (b : FVec Ideal S1x64 .f32) (s : FVec Ideal S100000x1 .f32)
    (wfc : FVec Ideal S64x2 .f32) (bfc : FVec Ideal S1x2 .f32) (r : Fin 100000) (q : Fin 2) : Ideal .f32 :=
  ∑ k : Fin 64, max (∑ j : Fin 64, (a (ix2 r j) * s (ix2 r (0 : Fin 1))) * W (ix2 j k) + b (ix2 (0 : Fin 1) k)) (Scalar.ofBits (F := Ideal) .f32 0x00000000#32)
      * wfc (ix2 k q) + bfc (ix2 (0 : Fin 1) q)

/-- The whole result array. -/
def result (a : FVec Ideal S100000x64 .f32) (W : FVec Ideal S64x64 .f32) (b : FVec Ideal S1x64 .f32) (s : FVec Ideal S100000x1 .f32)
    (wfc : FVec Ideal S64x2 .f32) (bfc : FVec Ideal S1x2 .f32) : FVec Ideal S100000x2 .f32 :=
  fun i => entry a W b s wfc bfc ⟨(i 0).val, idx2_lt0 i⟩ ⟨(i 1).val, idx2_lt1 i⟩

/-- A tile's stored entry from the arrays, once each loaded block is known to be rows of its array. -/
theorem tile_entry (a : FVec Ideal S100000x64 .f32) (W : FVec Ideal S64x64 .f32) (b : FVec Ideal S1x64 .f32) (s : FVec Ideal S100000x1 .f32)
    (wfc : FVec Ideal S64x2 .f32) (bfc : FVec Ideal S1x2 .f32)
    (x0 : Vec Ideal S5000x64 .f32) (x1 : Vec Ideal S64x64 .f32) (x2 : Vec Ideal S1x64 .f32) (x3 : Vec Ideal S5000x1 .f32)
    (x4 : Vec Ideal S64x2 .f32) (x5 : Vec Ideal S1x2 .f32)
    (r : Fin 100000) (p : Fin 5000) (q : Fin 2)
    (h0 : ∀ j : Fin 64, x0 (ix2 p j) = a (ix2 r j)) (h1 : ∀ j k : Fin 64, x1 (ix2 j k) = W (ix2 j k))
    (h2 : ∀ k : Fin 64, x2 (ix2 (0 : Fin 1) k) = b (ix2 (0 : Fin 1) k))
    (h3 : x3 (ix2 p (0 : Fin 1)) = s (ix2 r (0 : Fin 1)))
    (h4 : ∀ k : Fin 64, x4 (ix2 k q) = wfc (ix2 k q)) (h5 : x5 (ix2 (0 : Fin 1) q) = bfc (ix2 (0 : Fin 1) q)) :
    k1_pay1 x3 x0 x1 x2 x4 x5 (ix2 p q) = entry a W b s wfc bfc r q := by
  rw [pay1_apply]
  unfold tileAct entry
  simp only [h0, h1, h2, h3, h4, h5]

/-! ## The blocks a tile loads are rows of the arrays -/

/-- Where the seven windows sit at tile `t`: the three tiled ones at block row `t`, the four whole ones at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The tile of aggregated messages. -/
abbrev xb (c : Dev nD) (t : Fin cfg1.N) : Vec Ideal S5000x64 .f32 := iblk1 V c 0 t
/-- The second-layer weights as the tile sees them. -/
abbrev wb (c : Dev nD) (t : Fin cfg1.N) : Vec Ideal S64x64 .f32 := iblk1 V c 1 t
/-- The bias row as the tile sees it. -/
abbrev bb (c : Dev nD) (t : Fin cfg1.N) : Vec Ideal S1x64 .f32 := iblk1 V c 2 t
/-- The tile of the scale column. -/
abbrev sb (c : Dev nD) (t : Fin cfg1.N) : Vec Ideal S5000x1 .f32 := iblk1 V c 3 t
/-- The read-out weights as the tile sees them. -/
abbrev fb (c : Dev nD) (t : Fin cfg1.N) : Vec Ideal S64x2 .f32 := iblk1 V c 4 t
/-- The read-out bias row as the tile sees it. -/
abbrev gb (c : Dev nD) (t : Fin cfg1.N) : Vec Ideal S1x2 .f32 := iblk1 V c 5 t

theorem xb_apply (c : Dev nD) (t : Fin cfg1.N) (p : Fin 5000) (j : Fin 64) (i : S100000x64.Idx)
    (hi0 : (i 0).val = t.val * 5000 + p.val) (hi1 : (i 1).val = j.val) :
    xb V c t (ix2 p j) = (V c main_v43 : S100000x64.Idx → Ideal .f32) i := by
  obtain ⟨e0, e1, -⟩ := idx_facts t
  show iblk1 V c 0 t (ix2 p j) = _
  unfold iblk1
  rw [View.read_apply]
  show V c main_v43 _ = V c main_v43 _
  congr 1
  funext a
  apply Fin.ext
  match a with
  | ⟨0, _⟩ => show win1_0.index t (0 : Fin 2) * 5000 + 1 * p.val = (i 0).val; rw [e0, hi0]; omega
  | ⟨1, _⟩ => show win1_0.index t (1 : Fin 2) * 64 + 1 * j.val = (i 1).val; rw [e1, hi1]; omega

theorem wb_apply (c : Dev nD) (t : Fin cfg1.N) (j k : Fin 64) :
    wb V c t (ix2 j k) = (V c main_arg9 : S64x64.Idx → Ideal .f32) (ix2 j k) := by
  obtain ⟨-, -, e0, e1, -⟩ := idx_facts t
  show iblk1 V c 1 t (ix2 j k) = _
  unfold iblk1
  rw [View.read_apply]
  show V c main_arg9 _ = V c main_arg9 _
  congr 1
  funext a
  apply Fin.ext
  match a with
  | ⟨0, _⟩ => show win1_1.index t (0 : Fin 2) * 64 + 1 * j.val = j.val; rw [e0]; omega
  | ⟨1, _⟩ => show win1_1.index t (1 : Fin 2) * 64 + 1 * k.val = k.val; rw [e1]; omega

theorem bb_apply (c : Dev nD) (t : Fin cfg1.N) (k : Fin 64) :
    bb V c t (ix2 (0 : Fin 1) k) = (V c main_v45 : S1x64.Idx → Ideal .f32) (ix2 (0 : Fin 1) k) := by
  obtain ⟨-, -, -, -, e0, e1, -⟩ := idx_facts t
  show iblk1 V c 2 t (ix2 (0 : Fin 1) k) = _
  unfold iblk1
  rw [View.read_apply]
  show V c main_v45 _ = V c main_v45 _
  congr 1
  funext a
  apply Fin.ext
  match a with
  | ⟨0, _⟩ => show win1_2.index t (0 : Fin 2) * 1 + 1 * 0 = 0; rw [e0]
  | ⟨1, _⟩ => show win1_2.index t (1 : Fin 2) * 64 + 1 * k.val = k.val; rw [e1]; omega

theorem sb_apply (c : Dev nD) (t : Fin cfg1.N) (p : Fin 5000) (i : S100000x1.Idx)
    (hi0 : (i 0).val = t.val * 5000 + p.val) (hi1 : (i 1).val = 0) :
    sb V c t (ix2 p (0 : Fin 1)) = (V c main_v44 : S100000x1.Idx → Ideal .f32) i := by
  obtain ⟨-, -, -, -, -, -, e0, e1, -⟩ := idx_facts t
  show iblk1 V c 3 t (ix2 p (0 : Fin 1)) = _
  unfold iblk1
  rw [View.read_apply]
  show V c main_v44 _ = V c main_v44 _
  congr 1
  funext a
  apply Fin.ext
  match a with
  | ⟨0, _⟩ => show win1_3.index t (0 : Fin 2) * 5000 + 1 * p.val = (i 0).val; rw [e0, hi0]; omega
  | ⟨1, _⟩ => show win1_3.index t (1 : Fin 2) * 1 + 1 * 0 = (i 1).val; rw [e1, hi1]

theorem fb_apply (c : Dev nD) (t : Fin cfg1.N) (k : Fin 64) (q : Fin 2) :
    fb V c t (ix2 k q) = (V c main_arg17 : S64x2.Idx → Ideal .f32) (ix2 k q) := by
  obtain ⟨-, -, -, -, -, -, -, -, e0, e1, -⟩ := idx_facts t
  show iblk1 V c 4 t (ix2 k q) = _
  unfold iblk1
  rw [View.read_apply]
  show V c main_arg17 _ = V c main_arg17 _
  congr 1
  funext a
  apply Fin.ext
  match a with
  | ⟨0, _⟩ => show win1_4.index t (0 : Fin 2) * 64 + 1 * k.val = k.val; rw [e0]; omega
  | ⟨1, _⟩ => show win1_4.index t (1 : Fin 2) * 2 + 1 * q.val = q.val; rw [e1]; omega

theorem gb_apply (c : Dev nD) (t : Fin cfg1.N) (q : Fin 2) :
    gb V c t (ix2 (0 : Fin 1) q) = (V c main_v46 : S1x2.Idx → Ideal .f32) (ix2 (0 : Fin 1) q) := by
  obtain ⟨-, -, -, -, -, -, -, -, -, -, e0, e1, -⟩ := idx_facts t
  show iblk1 V c 5 t (ix2 (0 : Fin 1) q) = _
  unfold iblk1
  rw [View.read_apply]
  show V c main_v46 _ = V c main_v46 _
  congr 1
  funext a
  apply Fin.ext
  match a with
  | ⟨0, _⟩ => show win1_5.index t (0 : Fin 2) * 1 + 1 * 0 = 0; rw [e0]
  | ⟨1, _⟩ => show win1_5.index t (1 : Fin 2) * 2 + 1 * q.val = q.val; rw [e1]; omega

/-! ## Each written block is the restriction of `result`; the blocks cover; the array -/

theorem flushed_eq (c : Dev nD) (t : Fin cfg1.N) :
    (dat1 V c).flushed 6 t = ((cfg1.win 6).blk t).view.read (Elt Ideal)
      (result (V c main_v43) (V c main_arg9) (V c main_v45) (V c main_v44) (V c main_arg17) (V c main_v46)) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz,
    View.ld_unit_zero (S := S5000x1) hz, View.ld_unit_zero (S := S64x2) hz, View.ld_unit_zero (S := S1x2) hz]
  obtain ⟨-, -, -, -, -, -, -, -, -, -, -, -, e0, e1⟩ := idx_facts t
  funext y
  obtain ⟨p, q, rfl⟩ : ∃ (p : Fin 5000) (q : Fin 2), y = ix2 p q := ⟨y 0, y 1, eq_ix2 y⟩
  rw [View.read_apply]
  have h0 : ((((cfg1.win 6).blk t).view.emb (ix2 p q)) 0).val = t.val * 5000 + p.val := by
    show win1_6.index t (0 : Fin 2) * 5000 + 1 * p.val = _; rw [e0]; omega
  have h1 : ((((cfg1.win 6).blk t).view.emb (ix2 p q)) 1).val = q.val := by
    show win1_6.index t (1 : Fin 2) * 2 + 1 * q.val = _; rw [e1]; omega
  show k1_pay1 (sb V c t) (xb V c t) (wb V c t) (bb V c t) (fb V c t) (gb V c t) (ix2 p q)
    = entry (V c main_v43) (V c main_arg9) (V c main_v45) (V c main_v44) (V c main_arg17) (V c main_v46) ⟨_, _⟩ ⟨_, _⟩
  have hq : (⟨((((cfg1.win 6).blk t).view.emb (ix2 p q)) 1).val, idx2_lt1 _⟩ : Fin 2) = q := Fin.ext h1
  rw [hq]
  exact tile_entry (V c main_v43) (V c main_arg9) (V c main_v45) (V c main_v44) (V c main_arg17) (V c main_v46)
    (xb V c t) (wb V c t) (bb V c t) (sb V c t) (fb V c t) (gb V c t) _ p q
    (fun j => xb_apply V c t p j _ h0 rfl) (fun j k => wb_apply V c t j k) (fun k => bb_apply V c t k)
    (sb_apply V c t p _ h0 rfl) (fun k => fb_apply V c t k q) (gb_apply V c t q)

/-- Row `r` lies in tile `r / 5000`. -/
theorem cover (i : S100000x2.Idx) : ∃ t : Fin cfg1.N, (cfg1.win 6).flush t = true ∧ i ∈ ((cfg1.win 6).blk t).view.set := by
  have hi0 : (i 0).val < 100000 := idx2_lt0 i
  have hi1 : (i 1).val < 2 := idx2_lt1 i
  let t : Fin cfg1.N := ⟨(i 0).val / 5000, by rw [show cfg1.N = 20 from N_1]; omega⟩
  obtain ⟨-, -, -, -, -, -, -, -, -, -, -, -, e0, e1⟩ := idx_facts t
  refine ⟨t, flush1_6 t, ?_⟩
  show i ∈ ((View.whole main_v47).slice (win1_6.rect t)).set
  rw [View.set_slice_whole, Rect.mem_set_unit]
  intro a
  match a with
  | ⟨0, _⟩ =>
    show win1_6.index t (0 : Fin 2) * 5000 ≤ (i 0).val ∧ (i 0).val < win1_6.index t (0 : Fin 2) * 5000 + 5000
    rw [e0]; show (i 0).val / 5000 * 5000 ≤ (i 0).val ∧ (i 0).val < (i 0).val / 5000 * 5000 + 5000; omega
  | ⟨1, _⟩ =>
    show win1_6.index t (1 : Fin 2) * 2 ≤ (i 1).val ∧ (i 1).val < win1_6.index t (1 : Fin 2) * 2 + 2
    rw [e1]; omega

/-- THE ARRAY the second call leaves: `result` of the arrays it read. -/
theorem final (c : Dev nD) :
    (dat1 V c).arrAt 6 cfg1.N = result (V c main_v43) (V c main_arg9) (V c main_v45) (V c main_v44) (V c main_arg17) (V c main_v46) :=
  (dat1 V c).arrAt_eq_of_cover 6 _ (fun t _ => flushed_eq V c t) cover

end Cert.KernelIdeal.Layer2

end
-- ==== Proof.GnnSpec.lean ====
/-
  A two-layer graph convolution on one relation, and its read-out, as whole-array functions of the inputs.

  On the user-to-user edge list (sources `src`, destinations `dst`, two million edges over a hundred thousand nodes):
  `degOf ix` counts, per node, the edges whose end `ix` is that node, clamped below at one, and `rsq ix` is its inverse
  square root; `agg x src dst` gathers the rows of `x` at the edges' sources and adds each into its destination's row
  (the gather and the scatter-add are carried as they stand: nothing below opens them); `dense a W b rin` scales row
  `r` of `a` by `rin r`, multiplies by `W`, adds the bias and clamps at zero; `head h wfc bfc` is the final affine map.
  The whole network is `net`: dense ∘ agg twice, the hidden layer rescaled by the source degrees before the second
  aggregation, then the head.

  The second half reads one layer at ONE entry: entry (r, k) of `dense a W b rin` times `rout r` is
  max (∑ j, (a (r, j) · rin r) · W (j, k) + b k, 0) · rout r, and entry (r, q) of the head over a dense layer is the
  sum over k of that clamped value times `wfc (k, q)`, plus `bfc q` — sums over the extended reals, no law of arithmetic
  beyond reading each operation at an index.
-/
import proofs.«422056_j89369679495193_3_alg».proof.ReferenceIdeal
import Idealize.ShloMosaic.Lib.ValueIdx
import Idealize.ShloMosaic.Lib.Pipeline.Value
import Idealize.ShloMosaic.PureOps.Ideal.Laws

noncomputable section

namespace Cert.Gnn

open Idealize.ShloMosaic Idealize.ShloMosaic.ValueIdx Cert.ReferenceIdeal
open Cert.ReferenceIdeal.Facts₀ Cert.ReferenceIdeal.Facts
open scoped BigOperators

variable [Cert.ReferenceIdeal.Facts]

section Structure
variable {F : FTy → Type} [FloatOps F]

/-- An edge-end array as the programs hold it. -/
abbrev Ends (F : FTy → Type) [FloatOps F] := (⟨S2000000, .i32⟩ : BufTy).Contents (Elt F)

/-- Per node, the number of edges ending there (as a float), at least one. -/
def degOf (ix : Ends F) : FVec F S100000 .f32 :=
  maximumf (Host.scatterAdd scatter_S100000_S2000000x1_S2000000_n_0_0_1 (broadcastInDim S100000 ![] bcast_S_S100000 (constant S_ .f32 0x00000000#32)) (broadcastInDim S2000000x1 ![0] bcast_S2000000_S2000000x1_0 ix) (broadcastInDim S2000000 ![] bcast_S_S2000000 (constant S_ .f32 0x3F800000#32))) (broadcastInDim S100000 ![] bcast_S_S100000 (constant S_ .f32 0x3F800000#32))

/-- Its inverse square root. -/
def rsq (ix : Ends F) : FVec F S100000 .f32 := Host.rsqrt (degOf ix)

/-- A per-node factor spread along the feature axis. -/
def col (v : FVec F S100000 .f32) : FVec F S100000x64 .f32 :=
  broadcastInDim S100000x64 ![0, 1] bcast_S100000x1_S100000x64_0_1 (broadcastInDim S100000x1 ![0] bcast_S100000_S100000x1_0 v)

/-- Edge sources with a negative entry counted from the end. -/
def wrapIdx (src : Ends F) : Ends F :=
  select (cmpi .slt src (broadcastInDim S2000000 ![] bcast_S_S2000000 (constantI S_ 32 0#32))) (addi src (broadcastInDim S2000000 ![] bcast_S_S2000000 (constantI S_ 32 100000#32))) src

/-- Rows of `x` gathered at the sources and summed into the destinations. -/
def agg (x : FVec F S100000x64 .f32) (src dst : Ends F) : FVec F S100000x64 .f32 :=
  Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 dst) (Host.gather gather_S100000x64_S2000000x1_S2000000x64_1_0_n_n_0_1_164 x (broadcastInDim S2000000x1 ![0] bcast_S2000000_S2000000x1_0 (wrapIdx src)))

/-- A bias row spread over the nodes. -/
def bias (b : FVec F S64 .f32) : FVec F S100000x64 .f32 :=
  broadcastInDim S100000x64 ![0, 1] bcast_S1x64_S100000x64_0_1 (broadcastInDim S1x64 ![1] bcast_S64_S1x64_1 b)

/-- The all-zero feature array. -/
def zeros : FVec F S100000x64 .f32 := broadcastInDim S100000x64 ![] bcast_S_S100000x64 (constant S_ .f32 0x00000000#32)

/-- One dense layer after an aggregation: destination scaling, the product with the weights, the bias, the clamp at zero. -/
def dense (a : FVec F S100000x64 .f32) (W : FVec F S64x64 .f32) (b : FVec F S64 .f32) (rin : FVec F S100000 .f32) : FVec F S100000x64 .f32 :=
  maximumf (addf (Host.dotGeneral dot_S100000x64_S64x64_S100000x64_1_0_0_1_n_n none (mulf a (col rin)) W) (bias b)) zeros

/-- The read-out. -/
def head (h : FVec F S100000x64 .f32) (wfc : FVec F S64x2 .f32) (bfc : FVec F S2 .f32) : FVec F S100000x2 .f32 :=
  addf (Host.dotGeneral dot_S100000x64_S64x2_S100000x2_1_0_0_1_n_n none h wfc) (broadcastInDim S100000x2 ![0, 1] bcast_S1x2_S100000x2_0_1 (broadcastInDim S1x2 ![1] bcast_S2_S1x2_1 bfc))

/-- The hidden layer as the second aggregation reads it: the first layer's output, already scaled by the source degrees. -/
def hidden (x : FVec F S100000x64 .f32) (W1 : FVec F S64x64 .f32) (b1 : FVec F S64 .f32) (src dst : Ends F) : FVec F S100000x64 .f32 :=
  mulf (dense (agg (mulf x (col (rsq src))) src dst) W1 b1 (rsq dst)) (col (rsq src))

/-- The network. -/
def net (x : FVec F S100000x64 .f32) (W1 : FVec F S64x64 .f32) (b1 : FVec F S64 .f32) (W2 : FVec F S64x64 .f32) (b2 : FVec F S64 .f32)
    (wfc : FVec F S64x2 .f32) (bfc : FVec F S2 .f32) (src dst : Ends F) : FVec F S100000x2 .f32 :=
  head (dense (agg (hidden x W1 b1 src dst) src dst) W2 b2 (rsq dst)) wfc bfc

end Structure

/-! ## One entry of a layer, at the ideal values -/

/-- The clamped pre-activation at node `r`, feature `k`. -/
def actAt (a : FVec Ideal S100000x64 .f32) (W : FVec Ideal S64x64 .f32) (b : FVec Ideal S64 .f32) (rin : FVec Ideal S100000 .f32)
    (r : Fin 100000) (k : Fin 64) : Ideal .f32 :=
  max (∑ j : Fin 64, (a (ix2 r j) * rin (ix1 r)) * W (ix2 j k) + b (ix1 k)) (Ideal.ofBits .f32 0x00000000#32)

theorem col_apply (v : FVec Ideal S100000 .f32) (r : Fin 100000) (k : Fin 64) : col v (ix2 r k) = v (ix1 r) := by
  unfold col
  rw [broadcastInDim_apply _ bcast_S100000x1_S100000x64_0_1 _ (ix2 r k) (ix2 r (0 : Fin 1)) (fun a => by
        match a with
        | ⟨0, _⟩ => rfl
        | ⟨1, _⟩ => rfl),
      broadcastInDim_apply _ bcast_S100000_S100000x1_0 v (ix2 r (0 : Fin 1)) (ix1 r) (fun a => by
        match a with
        | ⟨0, _⟩ => rfl)]

theorem bias_apply (b : FVec Ideal S64 .f32) (r : Fin 100000) (k : Fin 64) : bias b (ix2 r k) = b (ix1 k) := by
  unfold bias
  rw [broadcastInDim_apply _ bcast_S1x64_S100000x64_0_1 _ (ix2 r k) (ix2 (0 : Fin 1) k) (fun a => by
        match a with
        | ⟨0, _⟩ => rfl
        | ⟨1, _⟩ => rfl),
      broadcastInDim_apply _ bcast_S64_S1x64_1 b (ix2 (0 : Fin 1) k) (ix1 k) (fun a => by
        match a with
        | ⟨0, _⟩ => rfl)]

theorem zeros_apply (i : S100000x64.Idx) : zeros (F := Ideal) i = Ideal.ofBits .f32 0x00000000#32 := by
  unfold zeros
  rw [broadcastInDim_apply _ bcast_S_S100000x64 _ i ix0 (fun a => a.elim0)]
  rfl

end Cert.Gnn

end
-- ==== Proof.KernelHost.lean ====
/-
  The arrays each pallas_call finds on entry, in the network's own words.

  Before the first call the host computes the two inverse-square-root degree vectors, scales the input rows by the source
  one, gathers them along the edges and sums them into the destinations (through a narrower float format and back, which
  at the ideal values changes nothing), lays the two degree vectors side by side as the two scale columns and reshapes
  the bias to a row. Between the calls it gathers and sums the first call's result the same way and reshapes the second
  bias and the read-out bias. This module names each of those arrays as a term of `Cert.Gnn`'s functions of the
  arguments, so that what each call reads and what the reference computes are written with the same words.
-/
import proofs.«422056_j89369679495193_3_alg».proof.Proof.Gen.KernelIdeal.Frame
import proofs.«422056_j89369679495193_3_alg».proof.Proof.Gen.ReferenceIdeal
import proofs.«422056_j89369679495193_3_alg».proof.Proof.GnnSpec
import Idealize.ShloMosaic.Lib.StableHlo.Run
import Idealize.ShloMosaic.Lib.ValueIdx

set_option maxRecDepth 16384

noncomputable section

namespace Cert.KernelIdeal.Host

open Idealize.ShloMosaic Idealize.ShloMosaic.ValueIdx Idealize.ShloMosaic.TcCoe Idealize.SL.Sem Idealize.ShloMosaic.StableHlo
open Cert.KernelIdeal

/-! ## The kernel program's host operations are the network's functions

Stated over variables: the two programs print the same operations over their own copies of the shapes and of the
dimension records, and a change of float format is the identity at the ideal values. -/

theorem rsq_eq (ix : (⟨S2000000, .i32⟩ : BufTy).Contents (Elt Ideal)) : (Host.rsqrt (maximumf (Host.scatterAdd scatter_S100000_S2000000x1_S2000000_n_0_0_1 (broadcastInDim S100000 ![] Facts₀.bcast_S_S100000 (constant S_ .f32 0x00000000#32)) (broadcastInDim S2000000x1 ![0] Facts₀.bcast_S2000000_S2000000x1_0 ix) (broadcastInDim S2000000 ![] Facts₀.bcast_S_S2000000 (constant S_ .f32 0x3F800000#32))) (broadcastInDim S100000 ![] Facts₀.bcast_S_S100000 (constant S_ .f32 0x3F800000#32)))) = Cert.Gnn.rsq ix := rfl

theorem col_eq (v : FVec Ideal S100000 .f32) :
    broadcastInDim S100000x64 ![0, 1] Facts₀.bcast_S100000x1_S100000x64_0_1 (broadcastInDim S100000x1 ![0] Facts₀.bcast_S100000_S100000x1_0 v) = Cert.Gnn.col v := rfl

/-- Gather and scatter-add of an array that passes through the narrower format on the way. -/
theorem agg_eq (X : FVec Ideal S100000x64 .f32) (src dst : (⟨S2000000, .i32⟩ : BufTy).Contents (Elt Ideal)) :
    Host.scatterAdd scatter_S100000x64_S2000000x1_S2000000x64_1_0_0_1 (broadcastInDim S100000x64 ![] Facts₀.bcast_S_S100000x64 (constant S_ .f32 0x00000000#32)) (broadcastInDim S2000000x1 ![0] Facts₀.bcast_S2000000_S2000000x1_0 dst)
      (extf .f32 (Host.gather gather_S100000x64_S2000000x1_S2000000x64_1_0_n_n_0_1_164 (truncf .bf16 X Facts₀.bitsLt_bf16_f32) (broadcastInDim S2000000x1 ![0] Facts₀.bcast_S2000000_S2000000x1_0 (select (cmpi .slt src (broadcastInDim S2000000 ![] Facts₀.bcast_S_S2000000 (constantI S_ 32 0#32))) (addi src (broadcastInDim S2000000 ![] Facts₀.bcast_S_S2000000 (constantI S_ 32 100000#32))) src))) Facts₀.bitsLt_bf16_f32)
    = Cert.Gnn.agg X src dst := rfl

/-- The same of an array already held in the narrower format. -/
theorem agg_eq' (Y : FVec Ideal S100000x64 .bf16) (src dst : (⟨S2000000, .i32⟩ : BufTy).Contents (Elt Ideal)) :
    Host.scatterAdd scatter_S100000x64_S2000000x1_S2000000x64_1_0_0_1 (broadcastInDim S100000x64 ![] Facts₀.bcast_S_S100000x64 (constant S_ .f32 0x00000000#32)) (broadcastInDim S2000000x1 ![0] Facts₀.bcast_S2000000_S2000000x1_0 dst)
      (extf .f32 (Host.gather gather_S100000x64_S2000000x1_S2000000x64_1_0_n_n_0_1_164 Y (broadcastInDim S2000000x1 ![0] Facts₀.bcast_S2000000_S2000000x1_0 (select (cmpi .slt src (broadcastInDim S2000000 ![] Facts₀.bcast_S_S2000000 (constantI S_ 32 0#32))) (addi src (broadcastInDim S2000000 ![] Facts₀.bcast_S_S2000000 (constantI S_ 32 100000#32))) src))) Facts₀.bitsLt_bf16_f32)
    = Cert.Gnn.agg Y src dst := rfl

variable (m : (ℓ : Loc nD τ sig) → Buf (Elt Ideal) ℓ) (ρ : Dev nD → PrngReg)

/-! ## The arguments, by name -/

abbrev x (c : Dev nD) : FVec Ideal S100000x64 .f32 := m ((c : Thread nD τ).loc main_arg0)
abbrev W1 (c : Dev nD) : FVec Ideal S64x64 .f32 := m ((c : Thread nD τ).loc main_arg1)
abbrev b1 (c : Dev nD) : FVec Ideal S64 .f32 := m ((c : Thread nD τ).loc main_arg2)
abbrev W2 (c : Dev nD) : FVec Ideal S64x64 .f32 := m ((c : Thread nD τ).loc main_arg9)
abbrev b2 (c : Dev nD) : FVec Ideal S64 .f32 := m ((c : Thread nD τ).loc main_arg10)
abbrev wfc (c : Dev nD) : FVec Ideal S64x2 .f32 := m ((c : Thread nD τ).loc main_arg17)
abbrev bfc (c : Dev nD) : FVec Ideal S2 .f32 := m ((c : Thread nD τ).loc main_arg18)
abbrev src (c : Dev nD) : (⟨S2000000, .i32⟩ : BufTy).Contents (Elt Ideal) := m ((c : Thread nD τ).loc main_arg19)
abbrev dst (c : Dev nD) : (⟨S2000000, .i32⟩ : BufTy).Contents (Elt Ideal) := m ((c : Thread nD τ).loc main_arg20)

/-! ## What the first call finds -/

theorem V1_v27 (c : Dev nD) : Gen.V1 m ρ c main_v27 = Cert.Gnn.agg (mulf (x m c) (Cert.Gnn.col (Cert.Gnn.rsq (src m c)))) (src m c) (dst m c) := by
  show StableHlo.after Gen.hostOps0 (Gen.W0 m ρ c) (Proc.devRef .tc main_v27) = _
  after_results_simp
  rw [rsq_eq, col_eq, agg_eq]

theorem V1_arg1 (c : Dev nD) : Gen.V1 m ρ c main_arg1 = W1 m c := by
  show StableHlo.after Gen.hostOps0 (Gen.W0 m ρ c) (Proc.devRef .tc main_arg1) = _
  after_results_simp <;> rfl

theorem V1_v31 (c : Dev nD) : Gen.V1 m ρ c main_v31 = (fun i => shapeCast S1x64 (b1 m c) Facts₀.shapeCasts_S64_S1x64 i) := by
  show StableHlo.after Gen.hostOps0 (Gen.W0 m ρ c) (Proc.devRef .tc main_v31) = _
  after_results_simp <;> rfl

set_option maxHeartbeats 4000000 in
theorem V1_v30 (c : Dev nD) : Gen.V1 m ρ c main_v30
    = concatenate S100000x2 1 [⟨S100000x1, broadcastInDim S100000x1 ![0] Facts₀.bcast_S100000_S100000x1_0 (Cert.Gnn.rsq (dst m c))⟩,
        ⟨S100000x1, broadcastInDim S100000x1 ![0] Facts₀.bcast_S100000_S100000x1_0 (Cert.Gnn.rsq (src m c))⟩] Facts₀.concatenates_S100000x1_S100000x1_S100000x2_d1 := by
  show StableHlo.after Gen.hostOps0 (Gen.W0 m ρ c) (Proc.devRef .tc main_v30) = _
  after_results
  rw [rsq_eq, rsq_eq]

theorem V1_v12 (c : Dev nD) : Gen.V1 m ρ c main_v12 = Cert.Gnn.rsq (dst m c) := by
  show StableHlo.after Gen.hostOps0 (Gen.W0 m ρ c) (Proc.devRef .tc main_v12) = _
  after_results_simp
  rw [rsq_eq]

/-- An argument is as launched when the first call is entered. -/
theorem V1_arg (b : Ref sig .tc) (hb : b = main_arg9 ∨ b = main_arg10 ∨ b = main_arg17 ∨ b = main_arg18 ∨ b = main_arg19 ∨ b = main_arg20) (c : Dev nD) :
    Gen.W1 m ρ c (Proc.devRef .tc b) = m ((c : Thread nD τ).loc b) := by
  show StableHlo.after Gen.hostOps0 (Gen.W0 m ρ c) (Proc.devRef .tc b) = _
  rcases hb with rfl | rfl | rfl | rfl | rfl | rfl <;> (after_results_simp <;> rfl)

/-! ## What the second call finds, given what the first left -/

/-- An argument is still as launched after the first call. -/
theorem W2_arg (b : Ref sig .tc) (hb : b = main_arg9 ∨ b = main_arg10 ∨ b = main_arg17 ∨ b = main_arg18 ∨ b = main_arg19 ∨ b = main_arg20) (c : Dev nD) :
    Gen.W2 m ρ c (Proc.devRef .tc b) = m ((c : Thread nD τ).loc b) := by
  rw [Gen.W2_of_ne m ρ c b (by rcases hb with rfl | rfl | rfl | rfl | rfl | rfl <;> decide)]
  exact V1_arg m ρ b hb c

theorem W2_v12 (c : Dev nD) : Gen.W2 m ρ c (Proc.devRef .tc main_v12) = Cert.Gnn.rsq (dst m c) := by
  rw [Gen.W2_of_ne m ρ c main_v12 (by decide)]
  exact V1_v12 m ρ c

theorem V3_v43 (c : Dev nD) (H : FVec Ideal S100000x64 .bf16) (hH : Gen.W2 m ρ c (Proc.devRef .tc main_v32) = H) :
    Gen.V3 m ρ c main_v43 = Cert.Gnn.agg H (src m c) (dst m c) := by
  show StableHlo.after Gen.hostOps1 (Gen.W2 m ρ c) (Proc.devRef .tc main_v43) = _
  after_results_simp
  rw [hH, W2_arg m ρ main_arg19 (by simp) c, W2_arg m ρ main_arg20 (by simp) c]
  exact agg_eq' H (src m c) (dst m c)

theorem V3_v44 (c : Dev nD) : Gen.V3 m ρ c main_v44 = broadcastInDim S100000x1 ![0] Facts₀.bcast_S100000_S100000x1_0 (Cert.Gnn.rsq (dst m c)) := by
  show StableHlo.after Gen.hostOps1 (Gen.W2 m ρ c) (Proc.devRef .tc main_v44) = _
  after_results_simp
  rw [W2_v12]

theorem V3_v45 (c : Dev nD) : Gen.V3 m ρ c main_v45 = (fun i => shapeCast S1x64 (b2 m c) Facts₀.shapeCasts_S64_S1x64 i) := by
  show StableHlo.after Gen.hostOps1 (Gen.W2 m ρ c) (Proc.devRef .tc main_v45) = _
  after_results_simp
  rw [W2_arg m ρ main_arg10 (by simp) c]
  rfl

theorem V3_v46 (c : Dev nD) : Gen.V3 m ρ c main_v46 = (fun i => shapeCast S1x2 (bfc m c) Facts₀.shapeCasts_S2_S1x2 i) := by
  show StableHlo.after Gen.hostOps1 (Gen.W2 m ρ c) (Proc.devRef .tc main_v46) = _
  after_results_simp
  rw [W2_arg m ρ main_arg18 (by simp) c]
  rfl

theorem V3_arg9 (c : Dev nD) : Gen.V3 m ρ c main_arg9 = W2 m c := by
  show StableHlo.after Gen.hostOps1 (Gen.W2 m ρ c) (Proc.devRef .tc main_arg9) = _
  after_results_simp
  exact W2_arg m ρ main_arg9 (by simp) c

theorem V3_arg17 (c : Dev nD) : Gen.V3 m ρ c main_arg17 = wfc m c := by
  show StableHlo.after Gen.hostOps1 (Gen.W2 m ρ c) (Proc.devRef .tc main_arg17) = _
  after_results_simp
  exact W2_arg m ρ main_arg17 (by simp) c

end Cert.KernelIdeal.Host

end
-- ==== Proof.GnnEntry.lean ====
/-
  The layers of the network read at ONE entry (at the ideal values).

  A product over the 64 features, read at (r, k), is the sum over j of the left operand at (r, j) times the right at (j, k);
  so entry (r, k) of a dense layer is `actAt`, the clamped pre-activation, and entry (r, q) of the read-out over a hidden
  array `h` is ∑ k, h (r, k) · wfc (k, q) + bfc q.
-/
import proofs.«422056_j89369679495193_3_alg».proof.Proof.GnnSpec
import proofs.«422056_j89369679495193_3_alg».proof.Proof.Gen.ReferenceIdeal
import proofs.«422056_j89369679495193_3_alg».proof.Proof.LibOneAxisContraction

noncomputable section

namespace Cert.Gnn

open Idealize.ShloMosaic Idealize.ShloMosaic.ValueIdx Cert.ReferenceIdeal
open Cert.ReferenceIdeal.Facts₀ Cert.ReferenceIdeal.Facts
open scoped BigOperators

theorem lhsW_0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhsW_1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem rhsW_0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem rhsW_1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem lhsH_0 (i : S100000x2.Idx) (q : dot_S100000x64_S64x2_S100000x2_1_0_0_1_n_n.contr.Idx) : (dot_S100000x64_S64x2_S100000x2_1_0_0_1_n_n.lhsIdx i q 0).val = (i 0).val := by
  unfold DotDims.lhsIdx
  rw [dif_neg (show ¬(0 : Fin S100000x64.rank) ∈ dot_S100000x64_S64x2_S100000x2_1_0_0_1_n_n.lhsBatch by decide), dif_pos (show (0 : Fin S100000x64.rank) ∈ dot_S100000x64_S64x2_S100000x2_1_0_0_1_n_n.lhsNonContracting by decide)]
  rfl
theorem lhsH_1 (i : S100000x2.Idx) (q : dot_S100000x64_S64x2_S100000x2_1_0_0_1_n_n.contr.Idx) : (dot_S100000x64_S64x2_S100000x2_1_0_0_1_n_n.lhsIdx i q 1).val = (q ⟨0, by decide⟩).val :=
  dot_S100000x64_S64x2_S100000x2_1_0_0_1_n_n.lhsIdx_val_of_single rfl i q
theorem rhsH_0 (i : S100000x2.Idx) (q : dot_S100000x64_S64x2_S100000x2_1_0_0_1_n_n.contr.Idx) : (dot_S100000x64_S64x2_S100000x2_1_0_0_1_n_n.rhsIdx i q 0).val = (q ⟨0, by decide⟩).val :=
  dot_S100000x64_S64x2_S100000x2_1_0_0_1_n_n.rhsIdx_val_of_single rfl i q
theorem rhsH_1 (i : S100000x2.Idx) (q : dot_S100000x64_S64x2_S100000x2_1_0_0_1_n_n.contr.Idx) : (dot_S100000x64_S64x2_S100000x2_1_0_0_1_n_n.rhsIdx i q 1).val = (i 1).val := by
  unfold DotDims.rhsIdx
  rw [dif_neg (show ¬(1 : Fin S64x2.rank) ∈ dot_S100000x64_S64x2_S100000x2_1_0_0_1_n_n.rhsBatch by decide), dif_pos (show (1 : Fin S64x2.rank) ∈ dot_S100000x64_S64x2_S100000x2_1_0_0_1_n_n.rhsNonContracting by decide)]
  rfl

/-- The product with a 64 × 64 weight matrix, at entry (r, k). -/
theorem dotW_apply (X : FVec Ideal S100000x64 .f32) (Y : FVec Ideal S64x64 .f32) (r : Fin 100000) (k : Fin 64) :
    Host.dotGeneral dot_S100000x64_S64x64_S100000x64_1_0_0_1_n_n none X Y (ix2 r k) = ∑ j : Fin 64, X (ix2 r j) * Y (ix2 j k) := by
  unfold Host.dotGeneral
  exact Cert.Dots.dotGeneral_apply_of dot_S100000x64_S64x64_S100000x64_1_0_0_1_n_n 64 rfl rfl none _ X Y (ix2 r k) (fun j => ix2 r j) (fun j => ix2 j k)
    (fun j => funext fun a => Fin.ext (by
      have hk := contrEquiv1_symm_val dot_S100000x64_S64x64_S100000x64_1_0_0_1_n_n 64 rfl rfl j
      match a with
      | ⟨0, _⟩ => exact lhsW_0 _ _
      | ⟨1, _⟩ => exact (lhsW_1 _ _).trans hk))
    (fun j => funext fun a => Fin.ext (by
      have hk := contrEquiv1_symm_val dot_S100000x64_S64x64_S100000x64_1_0_0_1_n_n 64 rfl rfl j
      match a with
      | ⟨0, _⟩ => exact (rhsW_0 _ _).trans hk
      | ⟨1, _⟩ => exact rhsW_1 _ _))

/-- The read-out's product, at entry (r, q). -/
theorem dotH_apply (X : FVec Ideal S100000x64 .f32) (Y : FVec Ideal S64x2 .f32) (r : Fin 100000) (q : Fin 2) :
    Host.dotGeneral dot_S100000x64_S64x2_S100000x2_1_0_0_1_n_n none X Y (ix2 r q) = ∑ k : Fin 64, X (ix2 r k) * Y (ix2 k q) := by
  unfold Host.dotGeneral
  exact Cert.Dots.dotGeneral_apply_of dot_S100000x64_S64x2_S100000x2_1_0_0_1_n_n 64 rfl rfl none _ X Y (ix2 r q) (fun k => ix2 r k) (fun k => ix2 k q)
    (fun j => funext fun a => Fin.ext (by
      have hk := contrEquiv1_symm_val dot_S100000x64_S64x2_S100000x2_1_0_0_1_n_n 64 rfl rfl j
      match a with
      | ⟨0, _⟩ => exact lhsH_0 _ _
      | ⟨1, _⟩ => exact (lhsH_1 _ _).trans hk))
    (fun j => funext fun a => Fin.ext (by
      have hk := contrEquiv1_symm_val dot_S100000x64_S64x2_S100000x2_1_0_0_1_n_n 64 rfl rfl j
      match a with
      | ⟨0, _⟩ => exact (rhsH_0 _ _).trans hk
      | ⟨1, _⟩ => exact rhsH_1 _ _))

/-- A dense layer at (r, k) is the clamped pre-activation there. -/
theorem dense_apply (a : FVec Ideal S100000x64 .f32) (W : FVec Ideal S64x64 .f32) (b : FVec Ideal S64 .f32) (rin : FVec Ideal S100000 .f32)
    (r : Fin 100000) (k : Fin 64) : dense a W b rin (ix2 r k) = actAt a W b rin r k := by
  unfold dense actAt
  simp only [maximumf_apply, addf_apply, mulf_apply, dotW_apply, col_apply, bias_apply, zeros_apply]

/-- A dense layer rescaled per node, at (r, k). -/
theorem scaled_dense_apply (a : FVec Ideal S100000x64 .f32) (W : FVec Ideal S64x64 .f32) (b : FVec Ideal S64 .f32) (rin rout : FVec Ideal S100000 .f32)
    (r : Fin 100000) (k : Fin 64) : mulf (dense a W b rin) (col rout) (ix2 r k) = actAt a W b rin r k * rout (ix1 r) := by
  rw [mulf_apply, dense_apply, col_apply]

/-- The read-out over a dense layer, at (r, q). -/
theorem head_dense_apply (a : FVec Ideal S100000x64 .f32) (W : FVec Ideal S64x64 .f32) (b : FVec Ideal S64 .f32) (rin : FVec Ideal S100000 .f32)
    (wfc : FVec Ideal S64x2 .f32) (bfc : FVec Ideal S2 .f32) (r : Fin 100000) (q : Fin 2) :
    head (dense a W b rin) wfc bfc (ix2 r q) = ∑ k : Fin 64, actAt a W b rin r k * wfc (ix2 k q) + bfc (ix1 q) := by
  unfold head
  rw [addf_apply, dotH_apply,
      broadcastInDim_apply _ bcast_S1x2_S100000x2_0_1 _ (ix2 r q) (ix2 (0 : Fin 1) q) (fun a => by
        match a with
        | ⟨0, _⟩ => rfl
        | ⟨1, _⟩ => rfl),
      broadcastInDim_apply _ bcast_S2_S1x2_1 bfc (ix2 (0 : Fin 1) q) (ix1 q) (fun a => by
        match a with
        | ⟨0, _⟩ => rfl)]
  simp only [dense_apply]

end Cert.Gnn

end
-- ==== Proof.KernelValue.lean ====
/-
  The kernel program's result array is the network of its arguments.

  Entry by entry, what each pallas_call leaves (`Layer1.result`, `Layer2.result`: sums over the 64 features of the tiles'
  entries) is what the network's layers hold there (`Cert.Gnn.scaled_dense_apply`, `head_dense_apply`), once the
  kernel-side layouts are read at an index: the bias row [1, 64] is the bias vector, the two scale columns laid side by
  side are the two degree vectors, a column [n, 1] is its vector. Chained through the host operations between the calls
  (`Host.V1_…`, `Host.V3_…`), the result buffer after the second call holds `Cert.Gnn.net` of the arguments, and the
  run of the program ends there.
-/
import proofs.«422056_j89369679495193_3_alg».proof.Proof.KernelLayer1
import proofs.«422056_j89369679495193_3_alg».proof.Proof.KernelLayer2
import proofs.«422056_j89369679495193_3_alg».proof.Proof.KernelHost
import proofs.«422056_j89369679495193_3_alg».proof.Proof.KernelRun
import proofs.«422056_j89369679495193_3_alg».proof.Proof.GnnEntry

set_option maxRecDepth 16384

noncomputable section

namespace Cert.KernelIdeal.Value

open Idealize.ShloMosaic Idealize.ShloMosaic.ValueIdx Idealize.ShloMosaic.TcCoe Idealize.SL.Sem
open Cert.KernelIdeal Cert.KernelIdeal.Host
open scoped BigOperators

/-! ## The kernel-side layouts at an index -/

/-- A vector reshaped to a one-row matrix, at (0, k). -/
theorem row64_apply (b : FVec Ideal S64 .f32) (k : Fin 64) :
    shapeCast S1x64 b Facts₀.shapeCasts_S64_S1x64 (ix2 (0 : Fin 1) k) = b (ix1 k) :=
  (shapeCast_addUnit_apply ![64] b Facts₀.shapeCasts_S64_S1x64 (ix2 (0 : Fin 1) k)).trans
    (congrArg b (funext fun a => by match a with | ⟨0, _⟩ => rfl))

theorem row2_apply (b : FVec Ideal S2 .f32) (q : Fin 2) :
    shapeCast S1x2 b Facts₀.shapeCasts_S2_S1x2 (ix2 (0 : Fin 1) q) = b (ix1 q) :=
  (shapeCast_addUnit_apply ![2] b Facts₀.shapeCasts_S2_S1x2 (ix2 (0 : Fin 1) q)).trans
    (congrArg b (funext fun a => by match a with | ⟨0, _⟩ => rfl))

/-- A vector as a column, at (r, 0). -/
theorem column_apply (v : FVec Ideal S100000 .f32) (r : Fin 100000) :
    broadcastInDim S100000x1 ![0] Facts₀.bcast_S100000_S100000x1_0 v (ix2 r (0 : Fin 1)) = v (ix1 r) :=
  broadcastInDim_apply _ Facts₀.bcast_S100000_S100000x1_0 v (ix2 r (0 : Fin 1)) (ix1 r) (fun a => by
    match a with
    | ⟨0, _⟩ => rfl)

/-- Two columns side by side: the left one at (r, 0), -/
theorem pair_left (u v : FVec Ideal S100000x1 .f32) (r : Fin 100000) :
    concatenate S100000x2 1 [⟨S100000x1, u⟩, ⟨S100000x1, v⟩] Facts₀.concatenates_S100000x1_S100000x1_S100000x2_d1 (ix2 r (0 : Fin 2)) = u (ix2 r (0 : Fin 1)) :=
  concatenate_pair_apply_left (1 : Fin S100000x2.rank) u v Facts₀.concatenates_S100000x1_S100000x1_S100000x2_d1 (ix2 r (0 : Fin 2)) rfl (ix2 r (0 : Fin 1)) (fun b => by
    match b with
    | ⟨0, _⟩ => rfl
    | ⟨1, _⟩ => rfl)

/-- the right one at (r, 1). -/
theorem pair_right (u v : FVec Ideal S100000x1 .f32) (r : Fin 100000) :
    concatenate S100000x2 1 [⟨S100000x1, u⟩, ⟨S100000x1, v⟩] Facts₀.concatenates_S100000x1_S100000x1_S100000x2_d1 (ix2 r (1 : Fin 2)) = v (ix2 r (0 : Fin 1)) :=
  concatenate_pair_apply_right (1 : Fin S100000x2.rank) u v Facts₀.concatenates_S100000x1_S100000x1_S100000x2_d1 (ix2 r (1 : Fin 2)) rfl rfl (ix2 r (0 : Fin 1)) (fun b hb => by
    match b with
    | ⟨0, _⟩ => rfl
    | ⟨1, _⟩ => exact absurd rfl hb) rfl

/-! ## The two calls' results are the network's layers -/

/-- An entry of the first call's result, once its row and columns are read as the vectors they hold. -/
theorem entry1_eq (a : FVec Ideal S100000x64 .f32) (W : FVec Ideal S64x64 .f32) (brow : FVec Ideal S1x64 .f32) (s : FVec Ideal S100000x2 .f32)
    (b : FVec Ideal S64 .f32) (rin rout : FVec Ideal S100000 .f32) (r : Fin 100000) (k : Fin 64)
    (hb : brow (ix2 (0 : Fin 1) k) = b (ix1 k)) (h0 : s (ix2 r (0 : Fin 2)) = rin (ix1 r)) (h1 : s (ix2 r (1 : Fin 2)) = rout (ix1 r)) :
    Layer1.entry a W brow s r k = Cert.Gnn.actAt a W b rin r k * rout (ix1 r) := by
  unfold Layer1.entry Cert.Gnn.actAt
  rw [hb, h0, h1]
  rfl

theorem layer1_eq (a : FVec Ideal S100000x64 .f32) (W : FVec Ideal S64x64 .f32) (b : FVec Ideal S64 .f32) (rin rout : FVec Ideal S100000 .f32) :
    Layer1.result a W (fun i => shapeCast S1x64 b Facts₀.shapeCasts_S64_S1x64 i)
      (concatenate S100000x2 1 [⟨S100000x1, broadcastInDim S100000x1 ![0] Facts₀.bcast_S100000_S100000x1_0 rin⟩,
        ⟨S100000x1, broadcastInDim S100000x1 ![0] Facts₀.bcast_S100000_S100000x1_0 rout⟩] Facts₀.concatenates_S100000x1_S100000x1_S100000x2_d1)
    = mulf (Cert.Gnn.dense a W b rin) (Cert.Gnn.col rout) := by
  funext i
  obtain ⟨r, k, rfl⟩ : ∃ (r : Fin 100000) (k : Fin 64), i = ix2 r k := ⟨i 0, i 1, eq_ix2 i⟩
  rw [Cert.Gnn.scaled_dense_apply]
  exact entry1_eq a W _ _ b rin rout r k (row64_apply b k)
    ((pair_left _ _ r).trans (column_apply rin r)) ((pair_right _ _ r).trans (column_apply rout r))

/-- An entry of the second call's result, once its rows and column are read as the vectors they hold. -/
theorem entry2_eq (a : FVec Ideal S100000x64 .f32) (W : FVec Ideal S64x64 .f32) (brow : FVec Ideal S1x64 .f32) (s : FVec Ideal S100000x1 .f32)
    (wfc : FVec Ideal S64x2 .f32) (frow : FVec Ideal S1x2 .f32) (b : FVec Ideal S64 .f32) (rin : FVec Ideal S100000 .f32) (bfc : FVec Ideal S2 .f32)
    (r : Fin 100000) (q : Fin 2)
    (hb : ∀ k : Fin 64, brow (ix2 (0 : Fin 1) k) = b (ix1 k)) (hs : s (ix2 r (0 : Fin 1)) = rin (ix1 r)) (hf : frow (ix2 (0 : Fin 1) q) = bfc (ix1 q)) :
    Layer2.entry a W brow s wfc frow r q = ∑ k : Fin 64, Cert.Gnn.actAt a W b rin r k * wfc (ix2 k q) + bfc (ix1 q) := by
  unfold Layer2.entry Cert.Gnn.actAt
  simp only [hb, hs, hf]
  rfl

theorem layer2_eq (a : FVec Ideal S100000x64 .f32) (W : FVec Ideal S64x64 .f32) (b : FVec Ideal S64 .f32) (rin : FVec Ideal S100000 .f32)
    (wfc : FVec Ideal S64x2 .f32) (bfc : FVec Ideal S2 .f32) :
    Layer2.result a W (fun i => shapeCast S1x64 b Facts₀.shapeCasts_S64_S1x64 i) (broadcastInDim S100000x1 ![0] Facts₀.bcast_S100000_S100000x1_0 rin)
      wfc (fun i => shapeCast S1x2 bfc Facts₀.shapeCasts_S2_S1x2 i)
    = Cert.Gnn.head (Cert.Gnn.dense a W b rin) wfc bfc := by
  funext i
  obtain ⟨r, q, rfl⟩ : ∃ (r : Fin 100000) (q : Fin 2), i = ix2 r q := ⟨i 0, i 1, eq_ix2 i⟩
  rw [Cert.Gnn.head_dense_apply]
  exact entry2_eq a W _ _ wfc _ b rin bfc r q (fun k => row64_apply b k) (column_apply rin r) (row2_apply bfc q)

/-! ## The result buffer, and the run -/

variable (m : (ℓ : Loc nD τ sig) → Buf (Elt Ideal) ℓ) (ρ : Dev nD → PrngReg)

/-- The network of the kernel program's own arguments. -/
abbrev out (c : Dev nD) : FVec Ideal S100000x2 .f32 :=
  Cert.Gnn.net (x m c) (W1 m c) (b1 m c) (W2 m c) (b2 m c) (wfc m c) (bfc m c) (src m c) (dst m c)

theorem hidden_eq (c : Dev nD) :
    Gen.W2 m ρ c (Proc.devRef .tc main_v32) = Cert.Gnn.hidden (x m c) (W1 m c) (b1 m c) (src m c) (dst m c) := by
  refine (Gen.W2_arr m ρ c 4).trans ((Layer1.final (Gen.V1 m ρ) c).trans ?_)
  rw [V1_v27, V1_arg1, V1_v31, V1_v30]
  exact layer1_eq _ _ _ _ _

theorem result_eq (c : Dev nD) : Gen.W4 m ρ c (Proc.devRef .tc main_v47) = out m c := by
  refine (Gen.W4_arr m ρ c 6).trans ((Layer2.final (Gen.V3 m ρ) c).trans ?_)
  rw [V3_v43 m ρ c _ (hidden_eq m ρ c), V3_arg9, V3_v45, V3_v44, V3_arg17, V3_v46]
  exact layer2_eq _ _ _ _ _ _

/-- THE RUN of the kernel program at the ideal values: the result array ends at the network of the arguments, the
    arguments as launched. -/
theorem run : θ_run defs (onTc (τ := τ) (main (F := Ideal))) ⟨m, fun _ => 0, ρ⟩ (fun r => ∀ c : Dev nD,
      r.2.mem ((c.tc : Thread nD τ).loc main_v47) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨(h c).1.trans (result_eq m ρ c), (h c).2⟩) (Named.run_named (F := Ideal) m ρ)

end Cert.KernelIdeal.Value

end
-- ==== Proof.RefValue.lean ====
/-
  The reference program's result is the network of its arguments.

  The reference's run ends with its result buffer at the composed term of its host operations; that term IS the
  network's definition, operation for operation (two aggregations, two dense layers, the read-out), so the equation
  holds by unfolding the names — at any float instance, nothing evaluated.
-/
import proofs.«422056_j89369679495193_3_alg».proof.Proof.RefRun
import proofs.«422056_j89369679495193_3_alg».proof.Proof.GnnSpec

set_option maxRecDepth 16384

noncomputable section

namespace Cert.ReferenceIdeal.Bridge

open Idealize.ShloMosaic Idealize.ShloMosaic.TcCoe Idealize.SL.Sem Cert.ReferenceIdeal

/-- The network of the reference program's own arguments. -/
abbrev out {F : FTy → Type} [FloatOps F] (m : (ℓ : Loc nD τ sig) → Buf (Elt F) ℓ) (c : Dev nD) : FVec F S100000x2 .f32 :=
  Cert.Gnn.net (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg17)) (m ((c.tc : Thread nD τ).loc main_arg18)) (m ((c.tc : Thread nD τ).loc main_arg19)) (m ((c.tc : Thread nD τ).loc main_arg20))

theorem res_eq {F : FTy → Type} [FloatOps F] (m : (ℓ : Loc nD τ sig) → Buf (Elt F) ℓ) (c : Dev nD) :
    ValueP.res_main_v275 m c = out m c := by
  unfold ValueP.res_main_v275
  rfl

/-- THE RUN of the reference at the ideal values: the result ends at the network of the arguments, the arguments as
    launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v275) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => ⟨(h c).1.trans (res_eq m c), (h c).2⟩) (ValueP.run (F := Ideal) m ρ)

end Cert.ReferenceIdeal.Bridge

end
-- ==== Proof.lean ====
/-
  A two-layer graph convolution with a read-out: the fused kernel program against its reference.

  Both programs compute, on the user-to-user edge list, out = relu(Â relu(Â X W₁ + b₁) W₂ + b₂) W_fc + b_fc with
  Â = D_in^{-1/2} A D_out^{-1/2} (degrees clamped at one). The kernel program keeps the gathers and scatter-adds on the
  host and fuses, per tile of 5000 nodes, the destination scaling, the 64 × 64 product, bias and clamp of each layer into
  one call (the first also applying the source scaling the second aggregation needs, the second also the read-out); the
  reference does every step on the host and also computes branches its result never reads. At the ideal values the two
  result arrays are ONE function of the arguments, `Cert.Gnn.net`: the reference's composed term is that function by
  unfolding (`Bridge.res_eq`), and the kernel program's result buffer holds it entry by entry (`Value.result_eq`: each
  call's blocks are restrictions of one whole-array function, whose entries are the layer's — sums over the 64 features,
  read at an index on both sides, no law of arithmetic beyond that). The frames of the two kernel programs are cited from
  their frame modules, the reference's frame is its run with the result forgotten; the idealization changed no operation,
  so `preserves` is trivial.
-/
import proofs.«422056_j89369679495193_3_alg».proof.Defs
import proofs.«422056_j89369679495193_3_alg».proof.Proof.Gen.Kernel
import proofs.«422056_j89369679495193_3_alg».proof.Proof.Gen.Kernel.Skeleton
import proofs.«422056_j89369679495193_3_alg».proof.Proof.Gen.Kernel.Launch
import proofs.«422056_j89369679495193_3_alg».proof.Proof.Gen.Kernel.Points
import proofs.«422056_j89369679495193_3_alg».proof.Proof.Gen.Kernel.Frame
import proofs.«422056_j89369679495193_3_alg».proof.Proof.Gen.KernelIdeal
import proofs.«422056_j89369679495193_3_alg».proof.Proof.Gen.KernelIdeal.Skeleton
import proofs.«422056_j89369679495193_3_alg».proof.Proof.Gen.KernelIdeal.Launch
import proofs.«422056_j89369679495193_3_alg».proof.Proof.Gen.KernelIdeal.Points
import proofs.«422056_j89369679495193_3_alg».proof.Proof.Gen.KernelIdeal.Frame
import proofs.«422056_j89369679495193_3_alg».proof.Proof.Gen.ReferenceIdeal
import proofs.«422056_j89369679495193_3_alg».proof.Proof.Gen.Pre_finite_inputs
import proofs.«422056_j89369679495193_3_alg».proof.Proof.KernelValue
import proofs.«422056_j89369679495193_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with their result at the network of those arguments. -/
theorem algebraic : Cert.algebraic_KernelIdeal_ReferenceIdeal := by
  intro m ρ m' ρ' _ hagree
  refine ⟨fun c => Cert.KernelIdeal.Value.out m c, Cert.KernelIdeal.Value.run m ρ, ?_⟩
  refine (θ_run Cert.ReferenceIdeal.defs _ _).mono (fun _ h c => ⟨(h c).1.trans ?_, (h c).2⟩) (Cert.ReferenceIdeal.Bridge.run m' ρ')
  obtain ⟨e0, e1, e2, e3, e4, e5, e6, e7, e8, e9, e10, e11, e12, e13, e14, e15, e16, e17, e18, e19, e20, e21, e22, e23, e24, e25, e26⟩ := hagree c
  show Cert.Gnn.net _ _ _ _ _ _ _ _ _ = Cert.Gnn.net _ _ _ _ _ _ _ _ _
  rw [e0, e1, e2, e9, e10, e17, e18, e19, e20]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
